-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512 : Shape := ⟨3, ![64, 1, 512]⟩
abbrev S64x512x256 : Shape := ⟨3, ![64, 512, 256]⟩
abbrev S64x1 : Shape := ⟨2, ![64, 1]⟩
abbrev S768x1024 : Shape := ⟨2, ![768, 1024]⟩
abbrev S1024 : Shape := ⟨1, ![1024]⟩
abbrev S1024x12 : Shape := ⟨2, ![1024, 12]⟩
abbrev S12 : Shape := ⟨1, ![12]⟩
abbrev S_ : Shape := ⟨0, ![]⟩

class Facts : Prop where
  bcast_S_S64x1x512 : S_.BroadcastsInDim S64x1x512 (![] : Fin 0 → Fin S64x1x512.rank)
  reducesTo_S64x1x512_S_d0_1_2 : S64x1x512.ReducesTo [0, 1, 2] S_
  h_S_ : 0 < S_.numel
  bcast_S_S64x512x256 : S_.BroadcastsInDim S64x512x256 (![] : Fin 0 → Fin S64x512x256.rank)
  reducesTo_S64x512x256_S_d0_1_2 : S64x512x256.ReducesTo [0, 1, 2] S_
  bcast_S_S768x1024 : S_.BroadcastsInDim S768x1024 (![] : Fin 0 → Fin S768x1024.rank)
  reducesTo_S768x1024_S_d0_1 : S768x1024.ReducesTo [0, 1] S_
  bcast_S_S1024 : S_.BroadcastsInDim S1024 (![] : Fin 0 → Fin S1024.rank)
  reducesTo_S1024_S_d0 : S1024.ReducesTo [0] S_
  bcast_S_S1024x12 : S_.BroadcastsInDim S1024x12 (![] : Fin 0 → Fin S1024x12.rank)
  reducesTo_S1024x12_S_d0_1 : S1024x12.ReducesTo [0, 1] S_
  bcast_S_S12 : S_.BroadcastsInDim S12 (![] : Fin 0 → Fin S12.rank)
  reducesTo_S12_S_d0 : S12.ReducesTo [0] S_

variable [Facts]

def fn_part1 {F : FTy → Type} [FloatOps F] (main_arg6 : FVec F S1024x12 .f32) (main_arg7 : FVec F S12 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x12 .f32 := Host.absf main_arg6
  let main_cst_6 : FVec F S_ .f32 := constant S_ .f32 0x7F800000#32
  let main_v20 : FVec F S1024x12 .f32 := broadcastInDim S1024x12 ![] bcast_S_S1024x12 main_cst_6
  let main_v21 : IVec S1024x12 1 := cmpf .olt main_v19 main_v20
  let main_c_7 : IVec S_ 1 := constantI S_ 1 1#1
  let main_v22 : IVec S_ 1 := (fun x v => Host.reduce IntOp.andi x v reducesTo_S1024x12_S_d0_1 h_S_) main_v21 main_c_7
  let main_v23 : IVec S_ 1 := andi main_v18 main_v22
  let main_v24 : FVec F S12 .f32 := Host.absf main_arg7
  let main_cst_8 : FVec F S_ .f32 := constant S_ .f32 0x7F800000#32
  let main_v25 : FVec F S12 .f32 := broadcastInDim S12 ![] bcast_S_S12 main_cst_8
  let main_v26 : IVec S12 1 := cmpf .olt main_v24 main_v25
  let main_c_9 : IVec S_ 1 := constantI S_ 1 1#1
  let main_v27 : IVec S_ 1 := (fun x v => Host.reduce IntOp.andi x v reducesTo_S12_S_d0 h_S_) main_v26 main_c_9
  let main_v28 : IVec S_ 1 := andi main_v23 main_v27
  main_v28

def fn {F : FTy → Type} [FloatOps F] (main_arg0 : FVec F S64x1x512 .f32) (main_arg1 : FVec F S64x512x256 .f32) (main_arg2 : IVec S64x1 32) (main_arg3 : IVec S64x1 32) (main_arg4 : FVec F S768x1024 .f32) (main_arg5 : FVec F S1024 .f32) (main_arg6 : FVec F S1024x12 .f32) (main_arg7 : FVec F S12 .f32) : IVec S_ 1 :=
  let main_v0 : FVec F S64x1x512 .f32 := Host.absf main_arg0
  let main_cst : FVec F S_ .f32 := constant S_ .f32 0x7F800000#32
  let main_v1 : FVec F S64x1x512 .f32 := broadcastInDim S64x1x512 ![] bcast_S_S64x1x512 main_cst
  let main_v2 : IVec S64x1x512 1 := cmpf .olt main_v0 main_v1
  let main_c : IVec S_ 1 := constantI S_ 1 1#1
  let main_v3 : IVec S_ 1 := (fun x v => Host.reduce IntOp.andi x v reducesTo_S64x1x512_S_d0_1_2 h_S_) main_v2 main_c
  let main_v4 : FVec F S64x512x256 .f32 := Host.absf main_arg1
  let main_cst_0 : FVec F S_ .f32 := constant S_ .f32 0x7F800000#32
  let main_v5 : FVec F S64x512x256 .f32 := broadcastInDim S64x512x256 ![] bcast_S_S64x512x256 main_cst_0
  let main_v6 : IVec S64x512x256 1 := cmpf .olt main_v4 main_v5
  let main_c_1 : IVec S_ 1 := constantI S_ 1 1#1
  let main_v7 : IVec S_ 1 := (fun x v => Host.reduce IntOp.andi x v reducesTo_S64x512x256_S_d0_1_2 h_S_) main_v6 main_c_1
  let main_v8 : IVec S_ 1 := andi main_v3 main_v7
  let main_v9 : FVec F S768x1024 .f32 := Host.absf main_arg4
  let main_cst_2 : FVec F S_ .f32 := constant S_ .f32 0x7F800000#32
  let main_v10 : FVec F S768x1024 .f32 := broadcastInDim S768x1024 ![] bcast_S_S768x1024 main_cst_2
  let main_v11 : IVec S768x1024 1 := cmpf .olt main_v9 main_v10
  let main_c_3 : IVec S_ 1 := constantI S_ 1 1#1
  let main_v12 : IVec S_ 1 := (fun x v => Host.reduce IntOp.andi x v reducesTo_S768x1024_S_d0_1 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg6 main_arg7 main_v13 main_v16
-- ==== Kernel.lean ====
abbrev S64x1x512 : Shape := ⟨3, ![64, 1, 512]⟩
abbrev S64x512x256 : Shape := ⟨3, ![64, 512, 256]⟩
abbrev S64x1 : Shape := ⟨2, ![64, 1]⟩
abbrev S768x1024 : Shape := ⟨2, ![768, 1024]⟩
abbrev S1024 : Shape := ⟨1, ![1024]⟩
abbrev S1024x12 : Shape := ⟨2, ![1024, 12]⟩
abbrev S12 : Shape := ⟨1, ![12]⟩
abbrev S1x1024 : Shape := ⟨2, ![1, 1024]⟩
abbrev S1x12 : Shape := ⟨2, ![1, 12]⟩
abbrev S64 : Shape := ⟨1, ![64]⟩
abbrev S64x512x12 : Shape := ⟨3, ![64, 512, 12]⟩
abbrev S64x512x1024 : Shape := ⟨3, ![64, 512, 1024]⟩
abbrev S1x1x512 : Shape := ⟨3, ![1, 1, 512]⟩
abbrev S1x512x256 : Shape := ⟨3, ![1, 512, 256]⟩
abbrev S1x512x12 : Shape := ⟨3, ![1, 512, 12]⟩
abbrev S1x512x1024 : Shape := ⟨3, ![1, 512, 1024]⟩
abbrev S1 : Shape := ⟨1, ![1]⟩
abbrev S1x512 : Shape := ⟨2, ![1, 512]⟩
abbrev S512x256 : Shape := ⟨2, ![512, 256]⟩
abbrev S512x512 : Shape := ⟨2, ![512, 512]⟩
abbrev S512x768 : Shape := ⟨2, ![512, 768]⟩
abbrev S512x1024 : Shape := ⟨2, ![512, 1024]⟩
abbrev S512x12 : Shape := ⟨2, ![512, 12]⟩
abbrev S512 : Shape := ⟨1, ![512]⟩
abbrev S512x1 : Shape := ⟨2, ![512, 1]⟩

abbrev nBuf : Space → Nat
  | .hbm => 14
  | .vmem => 12
  | .smem => 2
  | _ => 0

abbrev bufTy : (tb : Table) → Fin (tcTables nBuf tb) → BufTy
  | .hbm, ⟨0, _⟩ => ⟨S64x1x512, .f32⟩
  | .hbm, ⟨1, _⟩ => ⟨S64x512x256, .f32⟩
  | .hbm, ⟨2, _⟩ => ⟨S64x1, .i32⟩
  | .hbm, ⟨3, _⟩ => ⟨S64x1, .i32⟩
  | .hbm, ⟨4, _⟩ => ⟨S768x1024, .f32⟩
  | .hbm, ⟨5, _⟩ => ⟨S1024, .f32⟩
  | .hbm, ⟨6, _⟩ => ⟨S1024x12, .f32⟩
  | .hbm, ⟨7, _⟩ => ⟨S12, .f32⟩
  | .hbm, ⟨8, _⟩ => ⟨S1x1024, .f32⟩
  | .hbm, ⟨9, _⟩ => ⟨S1x12, .f32⟩
  | .hbm, ⟨10, _⟩ => ⟨S768x1024, .bf16⟩
  | .hbm, ⟨11, _⟩ => ⟨S1024x12, .bf16⟩
  | .hbm, ⟨12, _⟩ => ⟨S64x512x12, .f32⟩
  | .hbm, ⟨13, _⟩ => ⟨S64x512x1024, .f32⟩
  | .local _ .vmem, ⟨0, _⟩ => ⟨S1x1x512, .f32⟩
  | .local _ .vmem, ⟨1, _⟩ => ⟨S1x1x512, .f32⟩
  | .local _ .vmem, ⟨2, _⟩ => ⟨S1x512x256, .f32⟩
  | .local _ .vmem, ⟨3, _⟩ => ⟨S1x512x256, .f32⟩
  | .local _ .vmem, ⟨4, _⟩ => ⟨S768x1024, .bf16⟩
  | .local _ .vmem, ⟨5, _⟩ => ⟨S1x1024, .f32⟩
  | .local _ .vmem, ⟨6, _⟩ => ⟨S1024x12, .bf16⟩
  | .local _ .vmem, ⟨7, _⟩ => ⟨S1x12, .f32⟩
  | .local _ .vmem, ⟨8, _⟩ => ⟨S1x512x12, .f32⟩
  | .local _ .vmem, ⟨9, _⟩ => ⟨S1x512x12, .f32⟩
  | .local _ .vmem, ⟨10, _⟩ => ⟨S1x512x1024, .f32⟩
  | .local _ .vmem, ⟨11, _⟩ => ⟨S1x512x1024, .f32⟩
  | .local _ .smem, ⟨0, _⟩ => ⟨S64, .i32⟩
  | .local _ .smem, ⟨1, _⟩ => ⟨S64, .i32⟩
  | _, _ => ⟨S64x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v2 : Ref sig .tc := ⟨.smem, 0, rfl⟩
abbrev main_v3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_v2.idx, main_v3.idx], fun | 0 => main_v2.names | 1 => main_v3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x12 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x12 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S1024_S1x1024 : S1024.ShapeCasts S1x1024
  shapeCasts_S12_S1x12 : S12.ShapeCasts S1x12
  shapeCasts_S64x1_S64 : S64x1.ShapeCasts S64
  bitsLt_bf16_f32 : FTy.bits .bf16 < FTy.bits .f32
  numel1_S1 : S1.numel = 1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S1x512_S1x512 : S1x512.ShapeCasts S1x512
  broadcasts_S1x512_S512x512 : S1x512.Broadcasts S512x512
  concatenates_S512x256_S512x512_S512x768_d1 : Shape.Concatenates [S512x256, S512x512] S512x768 1
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  inb_S1024x12_S1024x12_0_0 : ∀ a, (![0, 0] : Fin 2 → Nat) a + S1024x12.size a ≤ S1024x12.size a
  h_S1024x12 : 0 < S1024x12.numel
  shapeCasts_S1024x12_S1024x12 : S1024x12.ShapeCasts S1024x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S512x12 : S1x12.Broadcasts S512x12
  reduces_S512x12_S512 : S512x12.Reduces [1] S512
  shapeCasts_S512_S512x1 : S512.ShapeCasts S512x1
  broadcasts_S512x1_S512x12 : S512x1.Broadcasts S512x12
  iota_S512x1_d0_w32 : S512x1.Iotas .tc 32 [0]
  inb_S1x512x12_S1x512x12_0_0_0 : ∀ a, (![0, 0, 0] : Fin 3 → Nat) a + S1x512x12.size a ≤ S1x512x12.size a
  h_S1x512x12 : 0 < S1x512x12.numel
  shapeCasts_S1x512x12_S512x12 : S1x512x12.ShapeCasts S512x12
  shapeCasts_S512x12_S1x512x12 : S512x12.ShapeCasts S1x512x12
  dot_S512x768_S768x1024_S512x1024_1_0_0_1_n_n_wf : DotDims.WF S512x768 S768x1024 S512x1024 [1] [0] [0] [1] [] []
  dot_S512x1024_S1024x12_S512x12_1_0_0_1_n_n_wf : DotDims.WF S512x1024 S1024x12 S512x12 [1] [0] [0] [1] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512.size a ≤ S64x1x512.size a
  hwx0_0 : ∀ i : grid0.Coords, EltTy.bits .f32 = 32 ∨ (Rect.block (s := S64x1x512) S1x1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S64x512x256.size a
  hwx0_1 : ∀ i : grid0.Coords, EltTy.bits .f32 = 32 ∨ (Rect.block (s := S64x512x256) S1x512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x1024.size a ≤ S768x1024.size a
  hwx0_2 : ∀ i : grid0.Coords, EltTy.bits .bf16 = 32 ∨ (Rect.block (s := S768x1024) S768x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x12.size a ≤ S1024x12.size a
  hwx0_4 : ∀ i : grid0.Coords, EltTy.bits .bf16 = 32 ∨ (Rect.block (s := S1024x12) S1024x12.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x12.size a ≤ S1x12.size a
  hwx0_5 : ∀ i : grid0.Coords, EltTy.bits .f32 = 32 ∨ (Rect.block (s := S1x12) S1x12.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x12.size a ≤ S64x512x12.size a
  hwx0_6 : ∀ i : grid0.Coords, EltTy.bits .f32 = 32 ∨ (Rect.block (s := S64x512x12) S1x512x12.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S64x512x1024.size a
  hwx0_7 : ∀ i : grid0.Coords, EltTy.bits .f32 = 32 ∨ (Rect.block (s := S64x512x1024) S1x512x1024.size (cc0_transform_7 i) (hinb0_7 i)).WholeWords (EltTy.packing .f32)

variable [Facts₀]

def dot_S512x768_S768x1024_S512x1024_1_0_0_1_n_n : DotDims S512x768 S768x1024 S512x1024 where
  lhsContracting := [1]
  rhsContracting := [0]
  lhsNonContracting := [0]
  rhsNonContracting := [1]
  lhsBatch := []
  rhsBatch := []
  wf := dot_S512x768_S768x1024_S512x1024_1_0_0_1_n_n_wf
def dot_S512x1024_S1024x12_S512x12_1_0_0_1_n_n : DotDims S512x1024 S1024x12 S512x12 where
  lhsContracting := [1]
  rhsContracting := [0]
  lhsNonContracting := [0]
  rhsNonContracting := [1]
  lhsBatch := []
  rhsBatch := []
  wf := dot_S512x1024_S1024x12_S512x12_1_0_0_1_n_n_wf

abbrev spec0_0 : Pipeline.WinSpec sig grid0.rank :=
  Pipeline.WinSpec.ofSpec (Memref.whole main_arg0) S1x1x512.size reads0_0 false false 2 stage0_0 sem0_0 nbuf0_0 hstage0_0

abbrev spec0_1 : Pipeline.WinSpec sig grid0.rank :=
  Pipeline.WinSpec.ofSpec (Memref.whole main_arg1) S1x512x256.size reads0_1 false false 2 stage0_1 sem0_1 nbuf0_1 hstage0_1

abbrev spec0_2 : Pipeline.WinSpec sig grid0.rank :=
  Pipeline.WinSpec.ofSpec (Memref.whole main_v4) S768x1024.size reads0_2 false true 1 stage0_2 sem0_2 nbuf0_2 hstage0_2

abbrev spec0_3 : Pipeline.WinSpec sig grid0.rank :=
  Pipeline.WinSpec.ofSpec (Memref.whole main_v0) S1x1024.size reads0_3 false true 1 stage0_3 sem0_3 nbuf0_3 hstage0_3

abbrev spec0_4 : Pipeline.WinSpec sig grid0.rank :=
  Pipeline.WinSpec.ofSpec (Memref.whole main_v5) S1024x12.size reads0_4 false true 1 stage0_4 sem0_4 nbuf0_4 hstage0_4

abbrev spec0_5 : Pipeline.WinSpec sig grid0.rank :=
  Pipeline.WinSpec.ofSpec (Memref.whole main_v1) S1x12.size reads0_5 false true 1 stage0_5 sem0_5 nbuf0_5 hstage0_5

abbrev spec0_6 : Pipeline.WinSpec sig grid0.rank :=
  Pipeline.WinSpec.ofSpec (Memref.whole main_v6_0) S1x512x12.size reads0_6 true false 2 stage0_6 sem0_6 nbuf0_6 hstage0_6

abbrev spec0_7 : Pipeline.WinSpec sig grid0.rank :=
  Pipeline.WinSpec.ofSpec (Memref.whole main_v6_1) S1x512x1024.size reads0_7 true false 2 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | ⟨_ + 8, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | ⟨_ + 8, h⟩ => absurd h (Nat.not_lt.2 (Nat.le_add_left _ _))

class Facts : Prop extends Facts₀ where
  harr0 : ∀ w, (spec0 w).arr.IsWhole

variable [Facts]
-- ==== ReferenceIdeal.lean ====
abbrev S64x1x512 : Shape := ⟨3, ![64, 1, 512]⟩
abbrev S64x512x256 : Shape := ⟨3, ![64, 512, 256]⟩
abbrev S64x1 : Shape := ⟨2, ![64, 1]⟩
abbrev S768x1024 : Shape := ⟨2, ![768, 1024]⟩
abbrev S1024 : Shape := ⟨1, ![1024]⟩
abbrev S1024x12 : Shape := ⟨2, ![1024, 12]⟩
abbrev S12 : Shape := ⟨1, ![12]⟩
abbrev S64x512x512 : Shape := ⟨3, ![64, 512, 512]⟩
abbrev S64x512x768 : Shape := ⟨3, ![64, 512, 768]⟩
abbrev S64x512x1024 : Shape := ⟨3, ![64, 512, 1024]⟩
abbrev S1x1x1024 : Shape := ⟨3, ![1, 1, 1024]⟩
abbrev S_ : Shape := ⟨0, ![]⟩
abbrev S64x512x12 : Shape := ⟨3, ![64, 512, 12]⟩
abbrev S1x1x12 : Shape := ⟨3, ![1, 1, 12]⟩
abbrev S64x512 : Shape := ⟨2, ![64, 512]⟩
abbrev S64x512x1 : Shape := ⟨3, ![64, 512, 1]⟩
abbrev S512 : Shape := ⟨1, ![512]⟩
abbrev S1x512 : Shape := ⟨2, ![1, 512]⟩

abbrev nBuf : Space → Nat
  | .hbm => 53
  | .vmem => 0
  | .smem => 0
  | _ => 0

abbrev bufTy : (tb : Table) → Fin (tcTables nBuf tb) → BufTy
  | .hbm, ⟨0, _⟩ => ⟨S64x1x512, .f32⟩
  | .hbm, ⟨1, _⟩ => ⟨S64x512x256, .f32⟩
  | .hbm, ⟨2, _⟩ => ⟨S64x1, .i32⟩
  | .hbm, ⟨3, _⟩ => ⟨S64x1, .i32⟩
  | .hbm, ⟨4, _⟩ => ⟨S768x1024, .f32⟩
  | .hbm, ⟨5, _⟩ => ⟨S1024, .f32⟩
  | .hbm, ⟨6, _⟩ => ⟨S1024x12, .f32⟩
  | .hbm, ⟨7, _⟩ => ⟨S12, .f32⟩
  | .hbm, ⟨8, _⟩ => ⟨S64x512x512, .f32⟩
  | .hbm, ⟨9, _⟩ => ⟨S64x512x768, .f32⟩
  | .hbm, ⟨10, _⟩ => ⟨S64x512x1024, .f32⟩
  | .hbm, ⟨11, _⟩ => ⟨S1x1x1024, .f32⟩
  | .hbm, ⟨12, _⟩ => ⟨S64x512x1024, .f32⟩
  | .hbm, ⟨13, _⟩ => ⟨S64x512x1024, .f32⟩
  | .hbm, ⟨14, _⟩ => ⟨S_, .f32⟩
  | .hbm, ⟨15, _⟩ => ⟨S64x512x1024, .f32⟩
  | .hbm, ⟨16, _⟩ => ⟨S64x512x1024, .f32⟩
  | .hbm, ⟨17, _⟩ => ⟨S64x512x12, .f32⟩
  | .hbm, ⟨18, _⟩ => ⟨S1x1x12, .f32⟩
  | .hbm, ⟨19, _⟩ => ⟨S64x512x12, .f32⟩
  | .hbm, ⟨20, _⟩ => ⟨S64x512x12, .f32⟩
  | .hbm, ⟨21, _⟩ => ⟨S_, .f32⟩
  | .hbm, ⟨22, _⟩ => ⟨S64x512, .f32⟩
  | .hbm, ⟨23, _⟩ => ⟨S_, .f32⟩
  | .hbm, ⟨24, _⟩ => ⟨S64x512, .f32⟩
  | .hbm, ⟨25, _⟩ => ⟨S64x512, .f32⟩
  | .hbm, ⟨26, _⟩ => ⟨S64x512x1, .f32⟩
  | .hbm, ⟨27, _⟩ => ⟨S64x512x12, .f32⟩
  | .hbm, ⟨28, _⟩ => ⟨S64x512x12, .f32⟩
  | .hbm, ⟨29, _⟩ => ⟨S64x512x12, .f32⟩
  | .hbm, ⟨30, _⟩ => ⟨S_, .f32⟩
  | .hbm, ⟨31, _⟩ => ⟨S64x512, .f32⟩
  | .hbm, ⟨32, _⟩ => ⟨S64x512x1, .f32⟩
  | .hbm, ⟨33, _⟩ => ⟨S64x512x12, .f32⟩
  | .hbm, ⟨34, _⟩ => ⟨S64x512x12, .f32⟩
  | .hbm, ⟨35, _⟩ => ⟨S512, .i32⟩
  | .hbm, ⟨36, _⟩ => ⟨S1x512, .i32⟩
  | .hbm, ⟨37, _⟩ => ⟨S64x512, .i32⟩
  | .hbm, ⟨38, _⟩ => ⟨S64x512, .i32⟩
  | .hbm, ⟨39, _⟩ => ⟨S64x512, .i1⟩
  | .hbm, ⟨40, _⟩ => ⟨S64x512, .i32⟩
  | .hbm, ⟨41, _⟩ => ⟨S64x512, .i32⟩
  | .hbm, ⟨42, _⟩ => ⟨S64x512, .i1⟩
  | .hbm, ⟨43, _⟩ => ⟨S64x512, .i1⟩
  | .hbm, ⟨44, _⟩ => ⟨S_, .f32⟩
  | .hbm, ⟨45, _⟩ => ⟨S_, .f32⟩
  | .hbm, ⟨46, _⟩ => ⟨S64x512, .f32⟩
  | .hbm, ⟨47, _⟩ => ⟨S64x512, .f32⟩
  | .hbm, ⟨48, _⟩ => ⟨S64x512, .f32⟩
  | .hbm, ⟨49, _⟩ => ⟨S64x512, .f32⟩
  | .hbm, ⟨50, _⟩ => ⟨S64x512x1, .f32⟩
  | .hbm, ⟨51, _⟩ => ⟨S64x512x12, .f32⟩
  | .hbm, ⟨52, _⟩ => ⟨S64x512x12, .f32⟩
  | _, _ => ⟨S64x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_cst : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_cst_3 : Ref sig .tc := ⟨.hbm, 45, rfl⟩
abbrev main_call1_v0 : Ref sig .tc := ⟨.hbm, 46, rfl⟩
abbrev main_call1_v1 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  bcast_S64x1x512_S64x512x512_0_1_2 : S64x1x512.BroadcastsInDim S64x512x512 (![0, 1, 2] : Fin 3 → Fin S64x512x512.rank)
  concatenates_S64x512x256_S64x512x512_S64x512x768_d2 : Shape.Concatenates [S64x512x256, S64x512x512] S64x512x768 2
  bcast_S1024_S1x1x1024_2 : S1024.BroadcastsInDim S1x1x1024 (![2] : Fin 1 → Fin S1x1x1024.rank)
  bcast_S1x1x1024_S64x512x1024_0_1_2 : S1x1x1024.BroadcastsInDim S64x512x1024 (![0, 1, 2] : Fin 3 → Fin S64x512x1024.rank)
  bcast_S_S64x512x1024 : S_.BroadcastsInDim S64x512x1024 (![] : Fin 0 → Fin S64x512x1024.rank)
  bcast_S12_S1x1x12_2 : S12.BroadcastsInDim S1x1x12 (![2] : Fin 1 → Fin S1x1x12.rank)
  bcast_S1x1x12_S64x512x12_0_1_2 : S1x1x12.BroadcastsInDim S64x512x12 (![0, 1, 2] : Fin 3 → Fin S64x512x12.rank)
  reducesTo_S64x512x12_S64x512_d2 : S64x512x12.ReducesTo [2] S64x512
  h_S_ : 0 < S_.numel
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S64x512x1_S64x512x12_0_1_2 : S64x512x1.BroadcastsInDim S64x512x12 (![0, 1, 2] : Fin 3 → Fin S64x512x12.rank)
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S64x1_S64x512_0_1 : S64x1.BroadcastsInDim S64x512 (![0, 1] : Fin 2 → Fin S64x512.rank)
  dot_S64x512x768_S768x1024_S64x512x1024_2_0_01_1_n_n_wf : DotDims.WF S64x512x768 S768x1024 S64x512x1024 [2] [0] [0, 1] [1] [] []
  dot_S64x512x1024_S1024x12_S64x512x12_2_0_01_1_n_n_wf : DotDims.WF S64x512x1024 S1024x12 S64x512x12 [2] [0] [0, 1] [1] [] []

variable [Facts₀]

def dot_S64x512x768_S768x1024_S64x512x1024_2_0_01_1_n_n : DotDims S64x512x768 S768x1024 S64x512x1024 where
  lhsContracting := [2]
  rhsContracting := [0]
  lhsNonContracting := [0, 1]
  rhsNonContracting := [1]
  lhsBatch := []
  rhsBatch := []
  wf := dot_S64x512x768_S768x1024_S64x512x1024_2_0_01_1_n_n_wf
def dot_S64x512x1024_S1024x12_S64x512x12_2_0_01_1_n_n : DotDims S64x512x1024 S1024x12 S64x512x12 where
  lhsContracting := [2]
  rhsContracting := [0]
  lhsNonContracting := [0, 1]
  rhsNonContracting := [1]
  lhsBatch := []
  rhsBatch := []
  wf := dot_S64x512x1024_S1024x12_S64x512x12_2_0_01_1_n_n_wf

class Facts : Prop extends Facts₀ where

variable [Facts]
-- ==== Proof.ActionHeadSpec.lean ====
/-
  The action head, as one function of the argument arrays, on the extended reals.

  For a batch member b and a unit slot u, the row fed to the first layer is the unit's embedding (256 entries)
  followed by the member's core output (512 entries). The hidden row is max(row · W1 + b1, 0), and it is also the
  second result. The logits are hidden · W2 + b2. The first result is the softmax of the logits over the 12 actions
  (each logit less the row's maximum, exponentiated, divided by the sum of the twelve exponentials), scaled by 1
  where nr_own_flags b ≤ u < nr_units b, as signed 32-bit words, and by the constant near 1e-9 elsewhere.

  Float constants stay as their f32 words: both programs spell the same words, so none is ever evaluated.
-/
import Idealize.ShloMosaic.PureOps.Ideal
import Idealize.ShloMosaic.Lib.ValueIdx

noncomputable section

namespace ActionHead

open Idealize.ShloMosaic Idealize.ShloMosaic.ValueIdx

/-- The f32 words of -infinity, 0, 1 and the mask's small constant, read as extended reals. -/
abbrev negInfW : EReal := Ideal.ofBits .f32 0xFF800000#32
abbrev zeroW : EReal := Ideal.ofBits .f32 0x00000000#32
abbrev oneW : EReal := Ideal.ofBits .f32 0x3F800000#32
abbrev tinyW : EReal := Ideal.ofBits .f32 0x3089705F#32

/-- Entry k of the row of member b, slot u: the slot's embedding for k < 256, then the member's core output. -/
def row (core : (⟨3, ![64, 1, 512]⟩ : Shape).Idx → EReal) (units : (⟨3, ![64, 512, 256]⟩ : Shape).Idx → EReal)
    (b : Fin 64) (u : Fin 512) (k : Fin 768) : EReal :=
  if h : k.val < 256 then units (ix3 b u ⟨k.val, h⟩)
  else core (ix3 b (0 : Fin 1) ⟨k.val - 256, by have := k.isLt; omega⟩)

/-- The hidden layer: max(row · W1 + b1, 0), entry by entry. -/
def hiddenArr (core : (⟨3, ![64, 1, 512]⟩ : Shape).Idx → EReal) (units : (⟨3, ![64, 512, 256]⟩ : Shape).Idx → EReal)
    (W1 : (⟨2, ![768, 1024]⟩ : Shape).Idx → EReal) (b1 : (⟨1, ![1024]⟩ : Shape).Idx → EReal) :
    (⟨3, ![64, 512, 1024]⟩ : Shape).Idx → EReal := fun i =>
  max ((∑ k : Fin 768, row core units (i 0) (i 1) k * W1 (ix2 k (i 2))) + b1 (ix1 (i 2))) zeroW

/-- The logits of a hidden array H: H · W2 + b2. -/
def logitArr (H : (⟨3, ![64, 512, 1024]⟩ : Shape).Idx → EReal) (W2 : (⟨2, ![1024, 12]⟩ : Shape).Idx → EReal)
    (b2 : (⟨1, ![12]⟩ : Shape).Idx → EReal) : (⟨3, ![64, 512, 12]⟩ : Shape).Idx → EReal := fun i =>
  (∑ h : Fin 1024, H (ix3 (i 0) (i 1) h) * W2 (ix2 h (i 2))) + b2 (ix1 (i 2))

/-- The maximum of a row of twelve logits, taken from -infinity, and once more against -infinity. -/
def rowMax (l : Fin 12 → EReal) : EReal := max negInfW ((Finset.univ : Finset (Fin 12)).fold max negInfW l)

/-- The exponential of a logit less its row's maximum. -/
def rowExp (l : Fin 12 → EReal) (a : Fin 12) : EReal := Ideal.exp (l a - rowMax l)

/-- The softmax of a row at action a. -/
def rowProb (l : Fin 12 → EReal) (a : Fin 12) : EReal := Ideal.div (rowExp l a) (∑ a' : Fin 12, rowExp l a')

/-- The bit of "nf ≤ u and u < nu", on signed 32-bit words. -/
def inRange (nu nf : BitVec 32) (u : Fin 512) : BitVec 1 :=
  IntOp.andi (IntOp.cmpi .sge (BitVec.ofNat 32 u.val) nf) (IntOp.cmpi .slt (BitVec.ofNat 32 u.val) nu)

/-- The factor of slot u: 1 inside the range, the small constant outside. -/
def scale (nu nf : BitVec 32) (u : Fin 512) : EReal := Scalar.select (inRange nu nf u) oneW tinyW

/-- The first result from a logit array: each row's softmax, scaled by its slot's factor. -/
def probArr (Lg : (⟨3, ![64, 512, 12]⟩ : Shape).Idx → EReal) (nu nf : (⟨2, ![64, 1]⟩ : Shape).Idx → BitVec 32) :
    (⟨3, ![64, 512, 12]⟩ : Shape).Idx → EReal := fun i =>
  rowProb (fun a => Lg (ix3 (i 0) (i 1) a)) (i 2)
    * scale (nu (ix2 (i 0) (0 : Fin 1))) (nf (ix2 (i 0) (0 : Fin 1))) (i 1)

end ActionHead

end
-- ==== Proof.RefStages.lean ====
/-
  The reference's stages are the action head's: its hidden stage is the hidden array, and its last stage is the
  scaled softmax of the logits of that hidden array.
-/
import proofs.«424987_j18236431139261_1_alg».proof.Proof.Gen.ReferenceIdeal.Read
import proofs.«424987_j18236431139261_1_alg».proof.Proof.ActionHeadSpec
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx ActionHead

/-- The concatenated row at (b, u, k) is the action head's row. -/
theorem v1_apply (x0 : (⟨S64x1x512, .f32⟩ : BufTy).Contents (Elt Ideal)) (x1 : (⟨S64x512x256, .f32⟩ : BufTy).Contents (Elt Ideal))
    (b : Fin 64) (u : Fin 512) (k : Fin 768) :
    val_main_v1 (F := Ideal) x0 x1 (ix3 b u k) = row x0 x1 b u k := by
  unfold val_main_v1 row
  by_cases h : k.val < 256
  · rw [dif_pos h]
    exact concatenate_pair_apply_left (2 : Fin 3) x1 (val_main_v0 (F := Ideal) x0)
      concatenates_S64x512x256_S64x512x512_S64x512x768_d2 (ix3 b u k) rfl (ix3 b u ⟨k.val, h⟩)
      (fun a => match a with | ⟨0, _⟩ => rfl | ⟨1, _⟩ => rfl | ⟨2, _⟩ => rfl)
  · rw [dif_neg h]
    have hk : k.val - 256 < 512 := by have := k.isLt; omega
    refine (concatenate_pair_apply_right (2 : Fin 3) x1 (val_main_v0 (F := Ideal) x0)
      concatenates_S64x512x256_S64x512x512_S64x512x768_d2 (ix3 b u k) rfl rfl (ix3 b u ⟨k.val - 256, hk⟩)
      (fun a => match a with | ⟨0, _⟩ => fun _ => rfl | ⟨1, _⟩ => fun _ => rfl | ⟨2, _⟩ => fun hne => absurd rfl hne)
      (by show k.val - 256 + 256 = k.val; omega)).trans ?_
    rw [val_main_v0_apply]
    exact congrArg x0 (funext fun a => Fin.ext (by match a with | ⟨0, _⟩ => rfl | ⟨1, _⟩ => rfl | ⟨2, _⟩ => rfl))
/-- The reference's hidden stage (its second result) is the hidden array. -/
theorem hidden_eq (x0 : (⟨S64x1x512, .f32⟩ : BufTy).Contents (Elt Ideal)) (x1 : (⟨S64x512x256, .f32⟩ : BufTy).Contents (Elt Ideal))
    (x4 : (⟨S768x1024, .f32⟩ : BufTy).Contents (Elt Ideal)) (x5 : (⟨S1024, .f32⟩ : BufTy).Contents (Elt Ideal)) :
    val_main_v6 (F := Ideal) x0 x1 x4 x5 = hiddenArr x0 x1 x4 x5 := by
  funext i
  obtain ⟨b, u, c, rfl⟩ : ∃ (b : Fin 64) (u : Fin 512) (c : Fin 1024), i = ix3 b u c := ⟨i 0, i 1, i 2, eq_ix3 i⟩
  rw [val_main_v6_apply, val_main_v5_apply, val_main_v2_apply, val_main_v4_apply, val_main_v3_apply,
    val_main_call0_v0_apply, val_main_call0_cst_apply]
  have hs : (∑ k : Fin 768, val_main_v1 (F := Ideal) x0 x1 (lidx_main_v2 (ix3 b u c) k) * x4 (ridx_main_v2 (ix3 b u c) k))
      = ∑ k : Fin 768, row x0 x1 b u k * x4 (ix2 k c) :=
    Finset.sum_congr rfl fun k _ => by
      have e1 : lidx_main_v2 (ix3 b u c) k = ix3 b u k :=
        funext fun a => Fin.ext (by match a with | ⟨0, _⟩ => rfl | ⟨1, _⟩ => rfl | ⟨2, _⟩ => rfl)
      have e2 : ridx_main_v2 (ix3 b u c) k = ix2 k c :=
        funext fun a => Fin.ext (by match a with | ⟨0, _⟩ => rfl | ⟨1, _⟩ => rfl)
      rw [e1, e2, v1_apply]
  have hb : x5 (idx_main_v3 (idx_main_v4 (ix3 b u c))) = x5 (ix1 c) :=
    congrArg x5 (funext fun a => Fin.ext (by match a with | ⟨0, _⟩ => rfl))
  rw [hs, hb]
  rfl

/-- The reference's logits are the logits of the hidden array. -/
theorem v10_eq (x0 : (⟨S64x1x512, .f32⟩ : BufTy).Contents (Elt Ideal)) (x1 : (⟨S64x512x256, .f32⟩ : BufTy).Contents (Elt Ideal))
    (x4 : (⟨S768x1024, .f32⟩ : BufTy).Contents (Elt Ideal)) (x5 : (⟨S1024, .f32⟩ : BufTy).Contents (Elt Ideal))
    (x6 : (⟨S1024x12, .f32⟩ : BufTy).Contents (Elt Ideal)) (x7 : (⟨S12, .f32⟩ : BufTy).Contents (Elt Ideal)) :
    val_main_v10 (F := Ideal) x0 x1 x4 x5 x6 x7 = logitArr (hiddenArr x0 x1 x4 x5) x6 x7 := by
  funext i
  obtain ⟨b, u, a, rfl⟩ : ∃ (b : Fin 64) (u : Fin 512) (a : Fin 12), i = ix3 b u a := ⟨i 0, i 1, i 2, eq_ix3 i⟩
  rw [val_main_v10_apply, val_main_v7_apply, val_main_v9_apply, val_main_v8_apply, hidden_eq]
  have hs : (∑ k : Fin 1024, hiddenArr x0 x1 x4 x5 (lidx_main_v7 (ix3 b u a) k) * x6 (ridx_main_v7 (ix3 b u a) k))
      = ∑ h : Fin 1024, hiddenArr x0 x1 x4 x5 (ix3 b u h) * x6 (ix2 h a) :=
    Finset.sum_congr rfl fun k _ => by
      have e1 : lidx_main_v7 (ix3 b u a) k = ix3 b u k :=
        funext fun d => Fin.ext (by match d with | ⟨0, _⟩ => rfl | ⟨1, _⟩ => rfl | ⟨2, _⟩ => rfl)
      have e2 : ridx_main_v7 (ix3 b u a) k = ix2 k a :=
        funext fun d => Fin.ext (by match d with | ⟨0, _⟩ => rfl | ⟨1, _⟩ => rfl)
      rw [e1, e2]
  have hb : x7 (idx_main_v8 (idx_main_v9 (ix3 b u a))) = x7 (ix1 a) :=
    congrArg x7 (funext fun d => Fin.ext (by match d with | ⟨0, _⟩ => rfl))
  rw [hs, hb]
  rfl

/-- The reference's clamped row maximum at (b, u) is the row maximum of the logits' row. -/
theorem v13_apply (x0 : (⟨S64x1x512, .f32⟩ : BufTy).Contents (Elt Ideal)) (x1 : (⟨S64x512x256, .f32⟩ : BufTy).Contents (Elt Ideal))
    (x4 : (⟨S768x1024, .f32⟩ : BufTy).Contents (Elt Ideal)) (x5 : (⟨S1024, .f32⟩ : BufTy).Contents (Elt Ideal))
    (x6 : (⟨S1024x12, .f32⟩ : BufTy).Contents (Elt Ideal)) (x7 : (⟨S12, .f32⟩ : BufTy).Contents (Elt Ideal)) (b : Fin 64) (u : Fin 512) :
    val_main_v13 (F := Ideal) x0 x1 x4 x5 x6 x7 (ix2 b u)
      = rowMax (fun a => val_main_v10 (F := Ideal) x0 x1 x4 x5 x6 x7 (ix3 b u a)) := by
  rw [val_main_v13_apply, val_main_v12_apply, val_main_cst_0_apply]
  unfold val_main_v11
  generalize val_main_v10 (F := Ideal) x0 x1 x4 x5 x6 x7 = y
  rw [Host.reduce_eq_fold_single (FloatOps.maximumf (F := Ideal) (φ := .f32)) y (val_main_cst (F := Ideal))
    reducesTo_S64x512x12_S64x512_d2 (by decide) h_S_ (ix2 b u)]
  have e : (y ∘ (show S64x512x12.Reduces [2] S64x512 by decide).lift (ix2 b u)) = fun a : Fin 12 => y (ix3 b u a) :=
    funext fun a => congrArg y (funext fun d => Fin.ext (by match d with | ⟨0, _⟩ => rfl | ⟨1, _⟩ => rfl | ⟨2, _⟩ => rfl))
  rw [e]
  rfl

/-- The reference's exponentials at (b, u, a) are the row's exponentials. -/
theorem v17_apply (x0 : (⟨S64x1x512, .f32⟩ : BufTy).Contents (Elt Ideal)) (x1 : (⟨S64x512x256, .f32⟩ : BufTy).Contents (Elt Ideal))
    (x4 : (⟨S768x1024, .f32⟩ : BufTy).Contents (Elt Ideal)) (x5 : (⟨S1024, .f32⟩ : BufTy).Contents (Elt Ideal))
    (x6 : (⟨S1024x12, .f32⟩ : BufTy).Contents (Elt Ideal)) (x7 : (⟨S12, .f32⟩ : BufTy).Contents (Elt Ideal)) (b : Fin 64) (u : Fin 512) (a : Fin 12) :
    val_main_v17 (F := Ideal) x0 x1 x4 x5 x6 x7 (ix3 b u a)
      = rowExp (fun a' => val_main_v10 (F := Ideal) x0 x1 x4 x5 x6 x7 (ix3 b u a')) a := by
  rw [val_main_v17_apply, val_main_v16_apply, val_main_v15_apply, val_main_v14_apply]
  have e : idx_main_v14 (idx_main_v15 (ix3 b u a)) = ix2 b u :=
    funext fun d => Fin.ext (by match d with | ⟨0, _⟩ => rfl | ⟨1, _⟩ => rfl)
  rw [e, v13_apply]
  rfl

/-- The reference's quotient at (b, u, a) is the row's softmax. -/
theorem v21_apply (x0 : (⟨S64x1x512, .f32⟩ : BufTy).Contents (Elt Ideal)) (x1 : (⟨S64x512x256, .f32⟩ : BufTy).Contents (Elt Ideal))
    (x4 : (⟨S768x1024, .f32⟩ : BufTy).Contents (Elt Ideal)) (x5 : (⟨S1024, .f32⟩ : BufTy).Contents (Elt Ideal))
    (x6 : (⟨S1024x12, .f32⟩ : BufTy).Contents (Elt Ideal)) (x7 : (⟨S12, .f32⟩ : BufTy).Contents (Elt Ideal)) (b : Fin 64) (u : Fin 512) (a : Fin 12) :
    val_main_v21 (F := Ideal) x0 x1 x4 x5 x6 x7 (ix3 b u a)
      = rowProb (fun a' => val_main_v10 (F := Ideal) x0 x1 x4 x5 x6 x7 (ix3 b u a')) a := by
  rw [val_main_v21_apply, val_main_v20_apply, val_main_v19_apply, val_main_v18_apply, val_main_cst_1_apply, v17_apply]
  have e : idx_main_v19 (idx_main_v20 (ix3 b u a)) = ix2 b u :=
    funext fun d => Fin.ext (by match d with | ⟨0, _⟩ => rfl | ⟨1, _⟩ => rfl)
  rw [e]
  have hs : (∑ k : Fin 12, val_main_v17 (F := Ideal) x0 x1 x4 x5 x6 x7 (idx_main_v18 (ix2 b u) k))
      = ∑ a' : Fin 12, rowExp (fun a'' => val_main_v10 (F := Ideal) x0 x1 x4 x5 x6 x7 (ix3 b u a'')) a' :=
    Finset.sum_congr rfl fun k _ => by
      have e1 : idx_main_v18 (ix2 b u) k = ix3 b u k :=
        funext fun d => Fin.ext (by match d with | ⟨0, _⟩ => rfl | ⟨1, _⟩ => rfl | ⟨2, _⟩ => rfl)
      rw [e1, v17_apply]
  rw [hs]
  show Ideal.div _ (Ideal.ofBits .f32 0x00000000#32 + _) = _
  rw [Ideal.ofBits_zero_f32, zero_add]
  rfl

/-- The reference's factor at (b, u) is the slot's factor. -/
theorem v32_apply (x2 x3 : (⟨S64x1, .i32⟩ : BufTy).Contents (Elt Ideal)) (b : Fin 64) (u : Fin 512) :
    val_main_v32 (F := Ideal) x2 x3 (ix2 b u) = scale (x2 (ix2 b (0 : Fin 1))) (x3 (ix2 b (0 : Fin 1))) u := by
  rw [val_main_v32_apply, val_main_v31_apply, val_main_v30_apply, val_main_v26_apply, val_main_v29_apply,
    val_main_v24_apply, val_main_v27_apply, val_main_v23_apply, val_main_v22_apply,
    val_main_v25_apply, val_main_v28_apply, val_main_call1_v0_apply, val_main_call1_v1_apply, val_main_cst_2_apply,
    val_main_cst_3_apply]
  have e25 : idx_main_v25 (ix2 b u) = ix2 b (0 : Fin 1) :=
    funext fun d => Fin.ext (by match d with | ⟨0, _⟩ => rfl | ⟨1, _⟩ => rfl)
  have e28 : idx_main_v28 (ix2 b u) = ix2 b (0 : Fin 1) :=
    funext fun d => Fin.ext (by match d with | ⟨0, _⟩ => rfl | ⟨1, _⟩ => rfl)
  rw [e25, e28]
  rfl

/-- The reference's last stage (its first result) is the scaled softmax of the logits of the hidden array. -/
theorem probs_eq (x0 : (⟨S64x1x512, .f32⟩ : BufTy).Contents (Elt Ideal)) (x1 : (⟨S64x512x256, .f32⟩ : BufTy).Contents (Elt Ideal))
    (x2 x3 : (⟨S64x1, .i32⟩ : BufTy).Contents (Elt Ideal))
    (x4 : (⟨S768x1024, .f32⟩ : BufTy).Contents (Elt Ideal)) (x5 : (⟨S1024, .f32⟩ : BufTy).Contents (Elt Ideal))
    (x6 : (⟨S1024x12, .f32⟩ : BufTy).Contents (Elt Ideal)) (x7 : (⟨S12, .f32⟩ : BufTy).Contents (Elt Ideal)) :
    val_main_v35 (F := Ideal) x0 x1 x2 x3 x4 x5 x6 x7 = probArr (logitArr (hiddenArr x0 x1 x4 x5) x6 x7) x2 x3 := by
  funext i
  obtain ⟨b, u, a, rfl⟩ : ∃ (b : Fin 64) (u : Fin 512) (a : Fin 12), i = ix3 b u a := ⟨i 0, i 1, i 2, eq_ix3 i⟩
  rw [val_main_v35_apply, val_main_v34_apply, val_main_v33_apply]
  have e : idx_main_v33 (idx_main_v34 (ix3 b u a)) = ix2 b u :=
    funext fun d => Fin.ext (by match d with | ⟨0, _⟩ => rfl | ⟨1, _⟩ => rfl)
  rw [e, v32_apply, v21_apply, v10_eq]
  rfl

end Cert.ReferenceIdeal.RefValue

end
-- ==== Proof.Payloads.lean ====
/-
  The kernel body's values at one grid point, read entry by entry at the extended reals: given that the point's
  input blocks hold member t of the argument arrays, the body's hidden block is member t of the hidden array, its
  logit block member t of the logits, its row maxima the rows' maxima, and its stored product the scaled softmax.
-/
import proofs.«424987_j18236431139261_1_alg».proof.Proof.Gen.KernelIdeal.Skeleton
import proofs.«424987_j18236431139261_1_alg».proof.Proof.ActionHeadSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx ActionHead

variable (core : (⟨3, ![64, 1, 512]⟩ : Shape).Idx → EReal) (units : (⟨3, ![64, 512, 256]⟩ : Shape).Idx → EReal)
  (W1 : (⟨2, ![768, 1024]⟩ : Shape).Idx → EReal) (b1 : (⟨1, ![1024]⟩ : Shape).Idx → EReal)
  (W2 : (⟨2, ![1024, 12]⟩ : Shape).Idx → EReal) (b2 : (⟨1, ![12]⟩ : Shape).Idx → EReal)
  (t : Fin 64)
  (x0 : Vec Ideal S1x1x512 .f32) (x1 : Vec Ideal S1x512x256 .f32) (x2 : Vec Ideal S768x1024 .bf16)
  (x3 : Vec Ideal S1x1024 .f32) (x4 : Vec Ideal S1024x12 .bf16) (x5 : Vec Ideal S1x12 .f32)

/-- The first operand's row coordinate is the result's row. -/
theorem lhs_mm1_0 (i : S512x1024.Idx) (q : dot_S512x768_S768x1024_S512x1024_1_0_0_1_n_n.contr.Idx) :
    (dot_S512x768_S768x1024_S512x1024_1_0_0_1_n_n.lhsIdx i q 0).val = (i 0).val := by
  unfold DotDims.lhsIdx
  rw [dif_neg (show ¬(0 : Fin S512x768.rank) ∈ dot_S512x768_S768x1024_S512x1024_1_0_0_1_n_n.lhsBatch by decide), dif_pos (show (0 : Fin S512x768.rank) ∈ dot_S512x768_S768x1024_S512x1024_1_0_0_1_n_n.lhsNonContracting by decide)]
  rfl
/-- The first operand's column coordinate is the contracted one. -/
theorem lhs_mm1_1 (i : S512x1024.Idx) (q : dot_S512x768_S768x1024_S512x1024_1_0_0_1_n_n.contr.Idx) :
    (dot_S512x768_S768x1024_S512x1024_1_0_0_1_n_n.lhsIdx i q 1).val = (q ⟨0, by decide⟩).val :=
  dot_S512x768_S768x1024_S512x1024_1_0_0_1_n_n.lhsIdx_val_of_single rfl i q
/-- The second operand's row coordinate is the contracted one. -/
theorem rhs_mm1_0 (i : S512x1024.Idx) (q : dot_S512x768_S768x1024_S512x1024_1_0_0_1_n_n.contr.Idx) :
    (dot_S512x768_S768x1024_S512x1024_1_0_0_1_n_n.rhsIdx i q 0).val = (q ⟨0, by decide⟩).val :=
  dot_S512x768_S768x1024_S512x1024_1_0_0_1_n_n.rhsIdx_val_of_single rfl i q
/-- The second operand's column coordinate is the result's column. -/
theorem rhs_mm1_1 (i : S512x1024.Idx) (q : dot_S512x768_S768x1024_S512x1024_1_0_0_1_n_n.contr.Idx) :
    (dot_S512x768_S768x1024_S512x1024_1_0_0_1_n_n.rhsIdx i q 1).val = (i 1).val := by
  unfold DotDims.rhsIdx
  rw [dif_neg (show ¬(1 : Fin S768x1024.rank) ∈ dot_S512x768_S768x1024_S512x1024_1_0_0_1_n_n.rhsBatch by decide), dif_pos (show (1 : Fin S768x1024.rank) ∈ dot_S512x768_S768x1024_S512x1024_1_0_0_1_n_n.rhsNonContracting by decide)]
  rfl
/-- The product into a zero accumulator, at (r, c): the sum over k of A (r, k) * B (k, c). -/
theorem mm1_apply (A : FVec Ideal S512x768 .bf16) (B : FVec Ideal S768x1024 .bf16) (r : Fin 512) (c : Fin 1024) :
    matmul dot_S512x768_S768x1024_S512x1024_1_0_0_1_n_n none A B (constant (F := Ideal) S512x1024 .f32 0x00000000#32) (ix2 r c)
      = ∑ k : Fin 768, A (ix2 r k) * B (ix2 k c) := by
  show FloatOps.matmul dot_S512x768_S768x1024_S512x1024_1_0_0_1_n_n none A B (constant (F := Ideal) S512x1024 .f32 0x00000000#32) (ix2 r c) = _
  rw [Ideal.matmul_constant_zero_apply, ← Equiv.sum_comp (contrEquiv1 dot_S512x768_S768x1024_S512x1024_1_0_0_1_n_n 768 rfl rfl).symm]
  refine Finset.sum_congr rfl fun k _ => ?_
  have hk := contrEquiv1_symm_val dot_S512x768_S768x1024_S512x1024_1_0_0_1_n_n 768 rfl rfl k
  have el : dot_S512x768_S768x1024_S512x1024_1_0_0_1_n_n.lhsIdx (ix2 r c) ((contrEquiv1 dot_S512x768_S768x1024_S512x1024_1_0_0_1_n_n 768 rfl rfl).symm k) = ix2 r k := funext fun a => Fin.ext (by
    match a with
    | ⟨0, _⟩ => exact lhs_mm1_0 _ _
    | ⟨1, _⟩ => exact (lhs_mm1_1 _ _).trans hk)
  have er : dot_S512x768_S768x1024_S512x1024_1_0_0_1_n_n.rhsIdx (ix2 r c) ((contrEquiv1 dot_S512x768_S768x1024_S512x1024_1_0_0_1_n_n 768 rfl rfl).symm k) = ix2 k c := funext fun a => Fin.ext (by
    match a with
    | ⟨0, _⟩ => exact (rhs_mm1_0 _ _).trans hk
    | ⟨1, _⟩ => exact rhs_mm1_1 _ _)
  rw [el, er]

/-- The row block and the core block joined along the columns: below column 256 the first, from there the second. -/
theorem concat_apply (A : FVec Ideal S512x256 .f32) (B : FVec Ideal S512x512 .f32) (u : Fin 512) (k : Fin 768) :
    concatenate S512x768 1 [⟨S512x256, A⟩, ⟨S512x512, B⟩] concatenates_S512x256_S512x512_S512x768_d1 (ix2 u k)
      = if hk : k.val < 256 then A (ix2 u ⟨k.val, hk⟩) else B (ix2 u ⟨k.val - 256, by have := k.isLt; omega⟩) := by
  split
  · next hk =>
    refine concatenate_pair_apply_left (1 : Fin 2) A B _ (ix2 u k) rfl (ix2 u ⟨k.val, hk⟩) (fun b => ?_)
    match b with
    | ⟨0, _⟩ => rfl
    | ⟨1, _⟩ => rfl
  · next hk =>
    refine concatenate_pair_apply_right (1 : Fin 2) A B _ (ix2 u k) rfl rfl (ix2 u ⟨k.val - 256, by have := k.isLt; omega⟩) (fun b hb => ?_) ?_
    · match b with
      | ⟨0, _⟩ => rfl
      | ⟨1, _⟩ => exact absurd rfl hb
    · show k.val - 256 + 256 = k.val
      omega

/-- The hidden block at (u, h) is the hidden array at (t, u, h). -/
theorem pay_hidden
    (h0 : ∀ j : Fin 512, x0 (ix3 (0 : Fin 1) (0 : Fin 1) j) = core (ix3 t (0 : Fin 1) j))
    (h1 : ∀ (u : Fin 512) (j : Fin 256), x1 (ix3 (0 : Fin 1) u j) = units (ix3 t u j))
    (h2 : ∀ (k : Fin 768) (h : Fin 1024), x2 (ix2 k h) = W1 (ix2 k h))
    (h3 : ∀ h : Fin 1024, x3 (ix2 (0 : Fin 1) h) = b1 (ix1 h))
    (u : Fin 512) (h : Fin 1024) :
    k0_pay2 (F := Ideal) x0 x1 x2 x3 (ix2 u h) = hiddenArr core units W1 b1 (ix3 t u h) := by
  unfold k0_pay2 hiddenArr
  show max (matmul (F := Ideal) dot_S512x768_S768x1024_S512x1024_1_0_0_1_n_n none _ _ _ (ix2 u h)
        + broadcastTo S512x1024 _ broadcasts_S1x1024_S512x1024 (ix2 u h)) (Ideal.ofBits .f32 0x00000000#32)
      = max ((∑ k : Fin 768, row core units t u k * W1 (ix2 k h)) + b1 (ix1 h)) zeroW
  rw [mm1_apply, broadcastTo_1b_ab_apply, shapeCast_self x3, h3]
  refine congrArg (fun s => max (s + b1 (ix1 h)) zeroW) (Finset.sum_congr rfl fun k _ => ?_)
  rw [truncf_apply, concat_apply, shapeCast_self x2, h2]
  unfold row
  split
  · rw [shapeCast_1ab_ab_apply, h1]
  · rw [broadcastTo_1b_ab_apply, shapeCast_self (shapeCast S1x512 x0 shapeCasts_S1x1x512_S1x512), shapeCast_1ab_ab_apply, h0]

/-- The block stored to the second output, at (0, u, h), is the hidden array at (t, u, h). -/
theorem pay_emb
    (h0 : ∀ j : Fin 512, x0 (ix3 (0 : Fin 1) (0 : Fin 1) j) = core (ix3 t (0 : Fin 1) j))
    (h1 : ∀ (u : Fin 512) (j : Fin 256), x1 (ix3 (0 : Fin 1) u j) = units (ix3 t u j))
    (h2 : ∀ (k : Fin 768) (h : Fin 1024), x2 (ix2 k h) = W1 (ix2 k h))
    (h3 : ∀ h : Fin 1024, x3 (ix2 (0 : Fin 1) h) = b1 (ix1 h))
    (u : Fin 512) (h : Fin 1024) :
    k0_pay3 (F := Ideal) x0 x1 x2 x3 (ix3 (0 : Fin 1) u h) = hiddenArr core units W1 b1 (ix3 t u h) := by
  unfold k0_pay3
  exact (shapeCast_ab_1ab_apply _ _ (0 : Fin 1) u h).trans (pay_hidden core units W1 b1 t x0 x1 x2 x3 h0 h1 h2 h3 u h)

/-- The first operand's row coordinate is the result's row. -/
theorem lhs_mm2_0 (i : S512x12.Idx) (q : dot_S512x1024_S1024x12_S512x12_1_0_0_1_n_n.contr.Idx) :
    (dot_S512x1024_S1024x12_S512x12_1_0_0_1_n_n.lhsIdx i q 0).val = (i 0).val := by
  unfold DotDims.lhsIdx
  rw [dif_neg (show ¬(0 : Fin S512x1024.rank) ∈ dot_S512x1024_S1024x12_S512x12_1_0_0_1_n_n.lhsBatch by decide), dif_pos (show (0 : Fin S512x1024.rank) ∈ dot_S512x1024_S1024x12_S512x12_1_0_0_1_n_n.lhsNonContracting by decide)]
  rfl
/-- The first operand's column coordinate is the contracted one. -/
theorem lhs_mm2_1 (i : S512x12.Idx) (q : dot_S512x1024_S1024x12_S512x12_1_0_0_1_n_n.contr.Idx) :
    (dot_S512x1024_S1024x12_S512x12_1_0_0_1_n_n.lhsIdx i q 1).val = (q ⟨0, by decide⟩).val :=
  dot_S512x1024_S1024x12_S512x12_1_0_0_1_n_n.lhsIdx_val_of_single rfl i q
/-- The second operand's row coordinate is the contracted one. -/
theorem rhs_mm2_0 (i : S512x12.Idx) (q : dot_S512x1024_S1024x12_S512x12_1_0_0_1_n_n.contr.Idx) :
    (dot_S512x1024_S1024x12_S512x12_1_0_0_1_n_n.rhsIdx i q 0).val = (q ⟨0, by decide⟩).val :=
  dot_S512x1024_S1024x12_S512x12_1_0_0_1_n_n.rhsIdx_val_of_single rfl i q
/-- The second operand's column coordinate is the result's column. -/
theorem rhs_mm2_1 (i : S512x12.Idx) (q : dot_S512x1024_S1024x12_S512x12_1_0_0_1_n_n.contr.Idx) :
    (dot_S512x1024_S1024x12_S512x12_1_0_0_1_n_n.rhsIdx i q 1).val = (i 1).val := by
  unfold DotDims.rhsIdx
  rw [dif_neg (show ¬(1 : Fin S1024x12.rank) ∈ dot_S512x1024_S1024x12_S512x12_1_0_0_1_n_n.rhsBatch by decide), dif_pos (show (1 : Fin S1024x12.rank) ∈ dot_S512x1024_S1024x12_S512x12_1_0_0_1_n_n.rhsNonContracting by decide)]
  rfl
/-- The product into a zero accumulator, at (r, c): the sum over k of A (r, k) * B (k, c). -/
theorem mm2_apply (A : FVec Ideal S512x1024 .bf16) (B : FVec Ideal S1024x12 .bf16) (r : Fin 512) (c : Fin 12) :
    matmul dot_S512x1024_S1024x12_S512x12_1_0_0_1_n_n none A B (constant (F := Ideal) S512x12 .f32 0x00000000#32) (ix2 r c)
      = ∑ k : Fin 1024, A (ix2 r k) * B (ix2 k c) := by
  show FloatOps.matmul dot_S512x1024_S1024x12_S512x12_1_0_0_1_n_n none A B (constant (F := Ideal) S512x12 .f32 0x00000000#32) (ix2 r c) = _
  rw [Ideal.matmul_constant_zero_apply, ← Equiv.sum_comp (contrEquiv1 dot_S512x1024_S1024x12_S512x12_1_0_0_1_n_n 1024 rfl rfl).symm]
  refine Finset.sum_congr rfl fun k _ => ?_
  have hk := contrEquiv1_symm_val dot_S512x1024_S1024x12_S512x12_1_0_0_1_n_n 1024 rfl rfl k
  have el : dot_S512x1024_S1024x12_S512x12_1_0_0_1_n_n.lhsIdx (ix2 r c) ((contrEquiv1 dot_S512x1024_S1024x12_S512x12_1_0_0_1_n_n 1024 rfl rfl).symm k) = ix2 r k := funext fun a => Fin.ext (by
    match a with
    | ⟨0, _⟩ => exact lhs_mm2_0 _ _
    | ⟨1, _⟩ => exact (lhs_mm2_1 _ _).trans hk)
  have er : dot_S512x1024_S1024x12_S512x12_1_0_0_1_n_n.rhsIdx (ix2 r c) ((contrEquiv1 dot_S512x1024_S1024x12_S512x12_1_0_0_1_n_n 1024 rfl rfl).symm k) = ix2 k c := funext fun a => Fin.ext (by
    match a with
    | ⟨0, _⟩ => exact (rhs_mm2_0 _ _).trans hk
    | ⟨1, _⟩ => exact rhs_mm2_1 _ _)
  rw [el, er]

/-- The logit block at (u, a) is the logit array of the hidden array at (t, u, a). -/
theorem pay_logit
    (h0 : ∀ j : Fin 512, x0 (ix3 (0 : Fin 1) (0 : Fin 1) j) = core (ix3 t (0 : Fin 1) j))
    (h1 : ∀ (u : Fin 512) (j : Fin 256), x1 (ix3 (0 : Fin 1) u j) = units (ix3 t u j))
    (h2 : ∀ (k : Fin 768) (h : Fin 1024), x2 (ix2 k h) = W1 (ix2 k h))
    (h3 : ∀ h : Fin 1024, x3 (ix2 (0 : Fin 1) h) = b1 (ix1 h))
    (h4 : ∀ (h : Fin 1024) (a : Fin 12), x4 (ix2 h a) = W2 (ix2 h a))
    (h5 : ∀ a : Fin 12, x5 (ix2 (0 : Fin 1) a) = b2 (ix1 a))
    (u : Fin 512) (a : Fin 12) :
    k0_pay4 (F := Ideal) x0 x1 x2 x3 x4 x5 (ix2 u a)
      = logitArr (hiddenArr core units W1 b1) W2 b2 (ix3 t u a) := by
  unfold k0_pay4 logitArr
  show matmul (F := Ideal) dot_S512x1024_S1024x12_S512x12_1_0_0_1_n_n none _ _ _ (ix2 u a)
        + broadcastTo S512x12 _ broadcasts_S1x12_S512x12 (ix2 u a)
      = (∑ h : Fin 1024, hiddenArr core units W1 b1 (ix3 t u h) * W2 (ix2 h a)) + b2 (ix1 a)
  rw [mm2_apply, broadcastTo_1b_ab_apply, shapeCast_self x5, h5]
  refine congrArg (· + b2 (ix1 a)) (Finset.sum_congr rfl fun h _ => ?_)
  rw [truncf_apply, shapeCast_self x4, h4, pay_hidden core units W1 b1 t x0 x1 x2 x3 h0 h1 h2 h3 u h]

/-- A vector of 512 entries cast to a column reads, at (u, 0), the vector at u. -/
theorem col_cast_apply {α : Type} (v : S512.Idx → α) (u : Fin 512) :
    shapeCast S512x1 v shapeCasts_S512_S512x1 (ix2 u (0 : Fin 1)) = v (ix1 u) :=
  shapeCast_apply v _ _ _ (by
    rw [Shape.rowMajor_val_two, Shape.rowMajor_val_one]
    show u.val = u.val * 1 + 0
    omega)

/-- A column broadcast over the twelve lanes reads, at (u, a), the column at (u, 0). -/
theorem col_bcast_apply {α : Type} (v : S512x1.Idx → α) (u : Fin 512) (a : Fin 12) :
    broadcastTo S512x12 v broadcasts_S512x1_S512x12 (ix2 u a) = v (ix2 u (0 : Fin 1)) := by
  refine broadcastTo_apply v _ (ix2 u a) (ix2 u (0 : Fin 1)) fun ax => ?_
  match ax with
  | ⟨0, _⟩ => show u.val = if (512 : Nat) = 1 then 0 else u.val; rw [if_neg (by decide)]
  | ⟨1, _⟩ => show 0 = if (1 : Nat) = 1 then 0 else a.val; rw [if_pos rfl]

/-- The index over row u with lane coordinate a is (u, a). -/
theorem lane_lift (u : Fin 512) (a : Fin 12) : reduces_S512x12_S512.lift (ix1 u) a = ix2 u a := by
  funext c
  match c with
  | ⟨0, _⟩ => exact Fin.ext rfl
  | ⟨1, _⟩ => exact Fin.ext rfl

/-- The lane sum of a block at row u: the sum of the row's twelve entries. -/
theorem lane_sum_apply (v : FVec Ideal S512x12 .f32) (hφ : FKind.Formats .f32)
    (hacc : (0x00000000#32 : BitVec 32) = FKind.add.neutral .f32 hφ) (u : Fin 512) :
    multiReduction (F := Ideal) .add [1] S512 v 0x00000000#32 reduces_S512x12_S512 hφ hacc (ix1 u)
      = ∑ a : Fin 12, v (ix2 u a) := by
  refine (Ideal.multiReduction_add_single v _ reduces_S512x12_S512 hφ hacc (ix1 u)).trans ?_
  show ∑ a : Fin 12, v (reduces_S512x12_S512.lift (ix1 u) a) = _
  exact Finset.sum_congr rfl fun a _ => congrArg v (lane_lift u a)

/-- The lane maximum of a block at row u: the fold of max over the row's twelve entries, from the word of -infinity. -/
theorem lane_max_apply (v : FVec Ideal S512x12 .f32) (hφ : FKind.Formats .f32)
    (hacc : (0xFF800000#32 : BitVec 32) = FKind.maximumf.neutral .f32 hφ) (u : Fin 512) :
    multiReduction (F := Ideal) .maximumf [1] S512 v 0xFF800000#32 reduces_S512x12_S512 hφ hacc (ix1 u)
      = (Finset.univ : Finset (Fin 12)).fold max negInfW (fun a => v (ix2 u a)) := by
  refine (Ideal.multiReduction_maximumf_single v _ reduces_S512x12_S512 hφ hacc (ix1 u)).trans ?_
  show (Finset.univ : Finset (Fin 12)).fold max negInfW (fun a => v (reduces_S512x12_S512.lift (ix1 u) a)) = _
  exact congrArg ((Finset.univ : Finset (Fin 12)).fold max negInfW) (funext fun a => congrArg v (lane_lift u a))

/-- The column of row maxima at (u, 0) is the maximum of row (t, u) of the logit array. -/
theorem pay_rowmax
    (h0 : ∀ j : Fin 512, x0 (ix3 (0 : Fin 1) (0 : Fin 1) j) = core (ix3 t (0 : Fin 1) j))
    (h1 : ∀ (u : Fin 512) (j : Fin 256), x1 (ix3 (0 : Fin 1) u j) = units (ix3 t u j))
    (h2 : ∀ (k : Fin 768) (h : Fin 1024), x2 (ix2 k h) = W1 (ix2 k h))
    (h3 : ∀ h : Fin 1024, x3 (ix2 (0 : Fin 1) h) = b1 (ix1 h))
    (h4 : ∀ (h : Fin 1024) (a : Fin 12), x4 (ix2 h a) = W2 (ix2 h a))
    (h5 : ∀ a : Fin 12, x5 (ix2 (0 : Fin 1) a) = b2 (ix1 a))
    (u : Fin 512) :
    k0_pay5 (F := Ideal) x0 x1 x2 x3 x4 x5 (ix2 u (0 : Fin 1))
      = rowMax (fun a => logitArr (hiddenArr core units W1 b1) W2 b2 (ix3 t u a)) := by
  unfold k0_pay5 rowMax
  rw [col_cast_apply]
  refine (maximumf_apply _ _ _).trans (congrArg (max negInfW) ?_)
  refine (lane_max_apply _ _ _ u).trans ?_
  refine congrArg ((Finset.univ : Finset (Fin 12)).fold max negInfW) (funext fun a => ?_)
  exact pay_logit core units W1 b1 W2 b2 t x0 x1 x2 x3 x4 x5 h0 h1 h2 h3 h4 h5 u a

/-- The block stored to the first output, at (0, u, a), from any logit block v31 and its column of row maxima v35
    and the two range words: the softmax of row u at a, scaled by slot u's factor. -/
theorem pay_probs (nu nf : BitVec 32) (v31 : FVec Ideal S512x12 .f32) (v35 : FVec Ideal S512x1 .f32)
    (hmax : ∀ u : Fin 512, v35 (ix2 u (0 : Fin 1)) = rowMax (fun a => v31 (ix2 u a)))
    (u : Fin 512) (a : Fin 12) :
    k0_pay1 (F := Ideal) nu nf v31 v35 (ix3 (0 : Fin 1) u a)
      = rowProb (fun a' => v31 (ix2 u a')) a * scale nu nf u := by
  have hexp : ∀ a' : Fin 12, exp (subf v31 (broadcastTo S512x12 v35 broadcasts_S512x1_S512x12)) (ix2 u a')
      = rowExp (fun a'' => v31 (ix2 u a'')) a' := fun a' => by
    show Ideal.exp (v31 (ix2 u a') - broadcastTo S512x12 v35 broadcasts_S512x1_S512x12 (ix2 u a')) = _
    rw [col_bcast_apply, hmax]
    rfl
  have hden : multiReduction (F := Ideal) .add [1] S512 (exp (subf v31 (broadcastTo S512x12 v35 broadcasts_S512x1_S512x12)))
      0x00000000#32 reduces_S512x12_S512 (.inl rfl) rfl (ix1 u) = ∑ a' : Fin 12, rowExp (fun a'' => v31 (ix2 u a'')) a' :=
    (lane_sum_apply _ _ _ u).trans (Finset.sum_congr rfl fun a' _ => hexp a')
  unfold k0_pay1
  rw [shapeCast_ab_1ab_apply, mulf_apply, divf_apply, col_bcast_apply, col_bcast_apply, col_cast_apply]
  refine congrArg₂ (· * ·) (congrArg₂ Ideal.div (hexp a) hden) ?_
  rw [select_apply]
  show Scalar.select (IntOp.andi
      (IntOp.cmpi .sge (iota .tc S512x1 32 [0] iota_S512x1_d0_w32 (ix2 u (0 : Fin 1))) nf)
      (IntOp.cmpi .slt (iota .tc S512x1 32 [0] iota_S512x1_d0_w32 (ix2 u (0 : Fin 1))) nu)) oneW tinyW = _
  rw [iota_single_apply]
  rfl

end Cert.KernelIdeal.PayValue

end
-- ==== Proof.PointValue.lean ====
/-
  What the body leaves in the two outputs' staging buffers at one grid point, entry by entry at the extended reals:
  if the point's input blocks hold member t of the argument arrays and the two prefetched tables hold the range
  words, the second output's block is member t of the hidden array and the first output's block member t of the
  scaled softmax.
-/
import proofs.«424987_j18236431139261_1_alg».proof.Proof.Gen.KernelIdeal.Frame
import proofs.«424987_j18236431139261_1_alg».proof.Proof.Payloads
import Idealize.ShloMosaic.Lib.Pipeline.Value
import Idealize.ShloMosaic.Lib.Tactic

set_option maxRecDepth 16384

noncomputable section

namespace Cert.KernelIdeal.PointValue

open Cert.KernelIdeal Cert.KernelIdeal.Gen Idealize.ShloMosaic Idealize.ShloMosaic.TcCoe Idealize.ShloMosaic.Tactic
open Idealize.ShloMosaic.ValueIdx ActionHead Idealize.SL.Sem

theorem hz3 : (![0, 0, 0] : Fin 3 → Nat) = fun _ => 0 := funext fun a => by fin_cases a <;> rfl
theorem hz2 : (![0, 0] : Fin 2 → Nat) = fun _ => 0 := funext fun a => by fin_cases a <;> rfl

variable {F : FTy → Type} [FloatOps F]

/-- The second output's staging buffer after the body: its one covering store's payload, the hidden block of the
    loaded blocks (at any float instance). -/
theorem out7_eq (c : Dev nD) (i : grid0.Coords) (arg3 : Memref sig .tc .vmem S1x1x512 .f32) (harg3 : arg3.IsWhole) (arg4 : Memref sig .tc .vmem S1x512x256 .f32) (harg4 : arg4.IsWhole) (arg5 : Memref sig .tc .vmem S768x1024 .bf16) (harg5 : arg5.IsWhole) (arg6 : Memref sig .tc .vmem S1x1024 .f32) (harg6 : arg6.IsWhole) (arg7 : Memref sig .tc .vmem S1024x12 .bf16) (harg7 : arg7.IsWhole) (arg8 : Memref sig .tc .vmem S1x12 .f32) (harg8 : arg8.IsWhole) (arg9 : Memref sig .tc .vmem S1x512x12 .f32) (harg9 : arg9.IsWhole) (arg10 : Memref sig .tc .vmem S1x512x1024 .f32) (harg10 : arg10.IsWhole)
    (x0 : Vec F S1x1x512 .f32) (x1 : Vec F S1x512x256 .f32) (x2 : Vec F S768x1024 .bf16) (x3 : Vec F S1x1024 .f32) (x4 : Vec F S1024x12 .bf16) (x5 : Vec F S1x12 .f32) (xt0 : TbBuf0 (F := F) c tbM0_0) (xt1 : TbBuf0 (F := F) c tbM0_1) :
    out0_A_7 c i arg3 harg3 arg4 harg4 arg5 harg5 arg6 harg6 arg7 harg7 arg8 harg8 arg9 harg9 arg10 harg10 x0 x1 x2 x3 x4 x5 xt0 xt1
      = k0_pay3 x0 x1 x2 x3 := by
  unfold out0_A_7
  rw [View.read_writes_eq_canon _ _ _ (cover0_A_7 c i arg3 harg3 arg4 harg4 arg5 harg5 arg6 harg6 arg7 harg7 arg8 harg8 arg9 harg9 arg10 harg10 x0 x1 x2 x3 x4 x5 xt0 xt1)]
  unfold kernelRun0_A
  dsimp only
  sl_unfold_words
  rw [View.canon_unit_zero hz3]
  simp only [View.readAt_eq_ld, harg3.read_unread, harg4.read_unread, harg5.read_unread, harg6.read_unread,
    View.ld_unit_zero (S := S1x1x512) hz3, View.ld_unit_zero (S := S1x512x256) hz3,
    View.ld_unit_zero (S := S768x1024) hz2, View.ld_unit_zero (S := S1x1024) hz2]

/-- The word the body loads from a prefetched table at a grid point: the table's entry through the one-word
    rectangle at the point's coordinate. -/
def wordAt (i : grid0.Coords) (T : S64.Idx → Elt F .i32) : Elt F .i32 :=
  View.ld T (Rect.unit (s := S64) (k0_off1 i) S1.size (k0_off1_inb i)) (Shape.Idx.first (show 0 < S1.numel from by decide))

/-- The first output's staging buffer after the body: its one covering store's payload, the scaled softmax of the
    logit block and its row maxima of the loaded blocks, with the two range words loaded from the tables (at any
    float instance). -/
theorem out6_eq (c : Dev nD) (i : grid0.Coords) (arg3 : Memref sig .tc .vmem S1x1x512 .f32) (harg3 : arg3.IsWhole) (arg4 : Memref sig .tc .vmem S1x512x256 .f32) (harg4 : arg4.IsWhole) (arg5 : Memref sig .tc .vmem S768x1024 .bf16) (harg5 : arg5.IsWhole) (arg6 : Memref sig .tc .vmem S1x1024 .f32) (harg6 : arg6.IsWhole) (arg7 : Memref sig .tc .vmem S1024x12 .bf16) (harg7 : arg7.IsWhole) (arg8 : Memref sig .tc .vmem S1x12 .f32) (harg8 : arg8.IsWhole) (arg9 : Memref sig .tc .vmem S1x512x12 .f32) (harg9 : arg9.IsWhole) (arg10 : Memref sig .tc .vmem S1x512x1024 .f32) (harg10 : arg10.IsWhole)
    (x0 : Vec F S1x1x512 .f32) (x1 : Vec F S1x512x256 .f32) (x2 : Vec F S768x1024 .bf16) (x3 : Vec F S1x1024 .f32) (x4 : Vec F S1024x12 .bf16) (x5 : Vec F S1x12 .f32) (xt0 : TbBuf0 (F := F) c tbM0_0) (xt1 : TbBuf0 (F := F) c tbM0_1) :
    out0_A_6 c i arg3 harg3 arg4 harg4 arg5 harg5 arg6 harg6 arg7 harg7 arg8 harg8 arg9 harg9 arg10 harg10 x0 x1 x2 x3 x4 x5 xt0 xt1
      = k0_pay1 (wordAt i xt0) (wordAt i xt1) (k0_pay4 x0 x1 x2 x3 x4 x5) (k0_pay5 x0 x1 x2 x3 x4 x5) := by
  unfold out0_A_6
  rw [View.read_writes_eq_canon _ _ _ (cover0_A_6 c i arg3 harg3 arg4 harg4 arg5 harg5 arg6 harg6 arg7 harg7 arg8 harg8 arg9 harg9 arg10 harg10 x0 x1 x2 x3 x4 x5 xt0 xt1)]
  unfold kernelRun0_A
  dsimp only
  sl_unfold_words
  rw [View.canon_unit_zero hz3]
  simp only [View.readAt_eq_ld, harg3.read_unread, harg4.read_unread, harg5.read_unread, harg6.read_unread, harg7.read_unread, harg8.read_unread,
    View.ld_unit_zero (S := S1x1x512) hz3, View.ld_unit_zero (S := S1x512x256) hz3,
    View.ld_unit_zero (S := S768x1024) hz2, View.ld_unit_zero (S := S1x1024) hz2,
    View.ld_unit_zero (S := S1024x12) hz2, View.ld_unit_zero (S := S1x12) hz2]
  rfl

/-- A load through the one-word rectangle at a grid point reads the table's entry at the point's own coordinate. -/
theorem ld_word (i : grid0.Coords) (T : S64.Idx → Elt F .i32) (b : Fin 64) (hb : (i 0).val = b.val)
    (x : (Rect.unit (s := S64) (k0_off1 i) S1.size (k0_off1_inb i)).shape.Idx) :
    View.ld T (Rect.unit (s := S64) (k0_off1 i) S1.size (k0_off1_inb i)) x = T (ix1 b) := by
  show T ((Rect.unit (s := S64) (k0_off1 i) S1.size (k0_off1_inb i)).emb x) = T (ix1 b)
  refine congrArg T (funext fun a => Fin.ext ?_)
  match a with
  | ⟨0, _⟩ =>
    have hx : (x 0).val < 1 := (x 0).isLt
    have hi : (i 0).val < 64 := (i 0).isLt
    show (BitVec.ofNat 32 (i 0).val).toNat + 1 * (x 0).val = b.val
    rw [BitVec.toNat_ofNat]
    omega

/-- So the loaded word is the table's entry at the point's own coordinate. -/
theorem wordAt_eq (i : grid0.Coords) (T : S64.Idx → Elt F .i32) (b : Fin 64) (hb : (i 0).val = b.val) :
    wordAt i T = T (ix1 b) := ld_word i T b hb _

/-! ## At the extended reals: the staged blocks are member t of the two results -/

section AtIdeal

variable (core : (⟨3, ![64, 1, 512]⟩ : Shape).Idx → EReal) (units : (⟨3, ![64, 512, 256]⟩ : Shape).Idx → EReal)
  (W1 : (⟨2, ![768, 1024]⟩ : Shape).Idx → EReal) (b1 : (⟨1, ![1024]⟩ : Shape).Idx → EReal)
  (W2 : (⟨2, ![1024, 12]⟩ : Shape).Idx → EReal) (b2 : (⟨1, ![12]⟩ : Shape).Idx → EReal)
  (nu nf : (⟨2, ![64, 1]⟩ : Shape).Idx → BitVec 32) (t : Fin 64)

/-- The second output's staged block at (0, u, h) is the hidden array at (t, u, h). -/
theorem emb_block (c : Dev nD) (i : grid0.Coords) (arg3 : Memref sig .tc .vmem S1x1x512 .f32) (harg3 : arg3.IsWhole) (arg4 : Memref sig .tc .vmem S1x512x256 .f32) (harg4 : arg4.IsWhole) (arg5 : Memref sig .tc .vmem S768x1024 .bf16) (harg5 : arg5.IsWhole) (arg6 : Memref sig .tc .vmem S1x1024 .f32) (harg6 : arg6.IsWhole) (arg7 : Memref sig .tc .vmem S1024x12 .bf16) (harg7 : arg7.IsWhole) (arg8 : Memref sig .tc .vmem S1x12 .f32) (harg8 : arg8.IsWhole) (arg9 : Memref sig .tc .vmem S1x512x12 .f32) (harg9 : arg9.IsWhole) (arg10 : Memref sig .tc .vmem S1x512x1024 .f32) (harg10 : arg10.IsWhole)
    (x0 : Vec Ideal S1x1x512 .f32) (x1 : Vec Ideal S1x512x256 .f32) (x2 : Vec Ideal S768x1024 .bf16) (x3 : Vec Ideal S1x1024 .f32) (x4 : Vec Ideal S1024x12 .bf16) (x5 : Vec Ideal S1x12 .f32) (xt0 : TbBuf0 (F := Ideal) c tbM0_0) (xt1 : TbBuf0 (F := Ideal) c tbM0_1)
    (h0 : ∀ j : Fin 512, x0 (ix3 (0 : Fin 1) (0 : Fin 1) j) = core (ix3 t (0 : Fin 1) j))
    (h1 : ∀ (u : Fin 512) (j : Fin 256), x1 (ix3 (0 : Fin 1) u j) = units (ix3 t u j))
    (h2 : ∀ (k : Fin 768) (h : Fin 1024), x2 (ix2 k h) = W1 (ix2 k h))
    (h3 : ∀ h : Fin 1024, x3 (ix2 (0 : Fin 1) h) = b1 (ix1 h))
    (u : Fin 512) (h : Fin 1024) :
    out0_A_7 (F := Ideal) c i arg3 harg3 arg4 harg4 arg5 harg5 arg6 harg6 arg7 harg7 arg8 harg8 arg9 harg9 arg10 harg10 x0 x1 x2 x3 x4 x5 xt0 xt1 (ix3 (0 : Fin 1) u h)
      = hiddenArr core units W1 b1 (ix3 t u h) := by
  rw [out7_eq]
  exact PayValue.pay_emb core units W1 b1 t x0 x1 x2 x3 h0 h1 h2 h3 u h

/-- The first output's staged block at (0, u, a) is the scaled softmax of the logits at (t, u, a), when the point's
    coordinate is t and the tables hold the range words. -/
theorem probs_block (c : Dev nD) (i : grid0.Coords) (hi : (i 0).val = t.val) (arg3 : Memref sig .tc .vmem S1x1x512 .f32) (harg3 : arg3.IsWhole) (arg4 : Memref sig .tc .vmem S1x512x256 .f32) (harg4 : arg4.IsWhole) (arg5 : Memref sig .tc .vmem S768x1024 .bf16) (harg5 : arg5.IsWhole) (arg6 : Memref sig .tc .vmem S1x1024 .f32) (harg6 : arg6.IsWhole) (arg7 : Memref sig .tc .vmem S1024x12 .bf16) (harg7 : arg7.IsWhole) (arg8 : Memref sig .tc .vmem S1x12 .f32) (harg8 : arg8.IsWhole) (arg9 : Memref sig .tc .vmem S1x512x12 .f32) (harg9 : arg9.IsWhole) (arg10 : Memref sig .tc .vmem S1x512x1024 .f32) (harg10 : arg10.IsWhole)
    (x0 : Vec Ideal S1x1x512 .f32) (x1 : Vec Ideal S1x512x256 .f32) (x2 : Vec Ideal S768x1024 .bf16) (x3 : Vec Ideal S1x1024 .f32) (x4 : Vec Ideal S1024x12 .bf16) (x5 : Vec Ideal S1x12 .f32)
    (xt0 xt1 : S64.Idx → BitVec 32)
    (h0 : ∀ j : Fin 512, x0 (ix3 (0 : Fin 1) (0 : Fin 1) j) = core (ix3 t (0 : Fin 1) j))
    (h1 : ∀ (u : Fin 512) (j : Fin 256), x1 (ix3 (0 : Fin 1) u j) = units (ix3 t u j))
    (h2 : ∀ (k : Fin 768) (h : Fin 1024), x2 (ix2 k h) = W1 (ix2 k h))
    (h3 : ∀ h : Fin 1024, x3 (ix2 (0 : Fin 1) h) = b1 (ix1 h))
    (h4 : ∀ (h : Fin 1024) (a : Fin 12), x4 (ix2 h a) = W2 (ix2 h a))
    (h5 : ∀ a : Fin 12, x5 (ix2 (0 : Fin 1) a) = b2 (ix1 a))
    (ht0 : ∀ b : Fin 64, xt0 (ix1 b) = nu (ix2 b (0 : Fin 1)))
    (ht1 : ∀ b : Fin 64, xt1 (ix1 b) = nf (ix2 b (0 : Fin 1)))
    (u : Fin 512) (a : Fin 12) :
    out0_A_6 (F := Ideal) c i arg3 harg3 arg4 harg4 arg5 harg5 arg6 harg6 arg7 harg7 arg8 harg8 arg9 harg9 arg10 harg10 x0 x1 x2 x3 x4 x5 xt0 xt1 (ix3 (0 : Fin 1) u a)
      = probArr (logitArr (hiddenArr core units W1 b1) W2 b2) nu nf (ix3 t u a) := by
  rw [out6_eq]
  have hl : ∀ (u' : Fin 512) (a' : Fin 12), k0_pay4 (F := Ideal) x0 x1 x2 x3 x4 x5 (ix2 u' a')
      = logitArr (hiddenArr core units W1 b1) W2 b2 (ix3 t u' a') :=
    PayValue.pay_logit core units W1 b1 W2 b2 t x0 x1 x2 x3 x4 x5 h0 h1 h2 h3 h4 h5
  refine (PayValue.pay_probs _ _ _ _ (fun u' => ?_) u a).trans ?_
  · exact (PayValue.pay_rowmax core units W1 b1 W2 b2 t x0 x1 x2 x3 x4 x5 h0 h1 h2 h3 h4 h5 u').trans
      (congrArg rowMax (funext fun a' => (hl u' a').symm))
  · rw [wordAt_eq i xt0 t hi, wordAt_eq i xt1 t hi, ht0, ht1, funext (hl u)]
    rfl

end AtIdeal

end Cert.KernelIdeal.PointValue

end
-- ==== Proof.KernelValue.lean ====
/-
  The kernel's run, read: at every grid point t the two outputs' staged blocks are member t of the scaled softmax
  and of the hidden array of the argument arrays; the blocks of the 64 points tile the two result arrays, so after
  the run each result array is that function of the arguments, and the arguments are unchanged.
-/
import proofs.«424987_j18236431139261_1_alg».proof.Proof.Gen.KernelIdeal.Frame
import proofs.«424987_j18236431139261_1_alg».proof.Proof.PointValue
import Idealize.ShloMosaic.Lib.Pipeline.Value
import Idealize.ShloMosaic.Lib.StableHlo.Run
import Idealize.ShloMosaic.Lib.ValueLayout

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo ActionHead
open Idealize.ShloMosaic.Pipeline (Dat)

variable (m : (ℓ : Loc nD τ sig) → Buf (Elt Ideal) ℓ) (ρ : Dev nD → PrngReg)

/-! ## The argument arrays, as the specification takes them -/

abbrev aCore (c : Dev nD) : (⟨3, ![64, 1, 512]⟩ : Shape).Idx → EReal := m ((c.tc : Thread nD τ).loc main_arg0)
abbrev aUnits (c : Dev nD) : (⟨3, ![64, 512, 256]⟩ : Shape).Idx → EReal := m ((c.tc : Thread nD τ).loc main_arg1)
abbrev aNu (c : Dev nD) : (⟨2, ![64, 1]⟩ : Shape).Idx → BitVec 32 := m ((c.tc : Thread nD τ).loc main_arg2)
abbrev aNf (c : Dev nD) : (⟨2, ![64, 1]⟩ : Shape).Idx → BitVec 32 := m ((c.tc : Thread nD τ).loc main_arg3)
abbrev aW1 (c : Dev nD) : (⟨2, ![768, 1024]⟩ : Shape).Idx → EReal := m ((c.tc : Thread nD τ).loc main_arg4)
abbrev aB1 (c : Dev nD) : (⟨1, ![1024]⟩ : Shape).Idx → EReal := m ((c.tc : Thread nD τ).loc main_arg5)
abbrev aW2 (c : Dev nD) : (⟨2, ![1024, 12]⟩ : Shape).Idx → EReal := m ((c.tc : Thread nD τ).loc main_arg6)
abbrev aB2 (c : Dev nD) : (⟨1, ![12]⟩ : Shape).Idx → EReal := m ((c.tc : Thread nD τ).loc main_arg7)

/-! ## What the host lines before the region leave in the arrays the windows stage -/

/-- The first layer's weights as the region finds them: the argument through the change of float format, which at
    the extended reals changes nothing. -/
theorem V_w1 (c : Dev nD) (k : Fin 768) (h : Fin 1024) :
    (V m c main_v4 : S768x1024.Idx → EReal) (ix2 k h) = aW1 m c (ix2 k h) := by
  have e : (V m c main_v4 : S768x1024.Idx → EReal) = truncf (F := Ideal) .bf16 (m ((c.tc : Thread nD τ).loc main_arg4)) bitsLt_bf16_f32 := by
    dsimp only [V, hostOps0]; after_results
  rw [e]; rfl

/-- The second layer's weights as the region finds them, likewise. -/
theorem V_w2 (c : Dev nD) (h : Fin 1024) (a : Fin 12) :
    (V m c main_v5 : S1024x12.Idx → EReal) (ix2 h a) = aW2 m c (ix2 h a) := by
  have e : (V m c main_v5 : S1024x12.Idx → EReal) = truncf (F := Ideal) .bf16 (m ((c.tc : Thread nD τ).loc main_arg6)) bitsLt_bf16_f32 := by
    dsimp only [V, hostOps0]; after_results
  rw [e]; rfl

/-- The first bias as the region finds it: the argument viewed as one row. -/
theorem V_b1 (c : Dev nD) (h : Fin 1024) :
    (V m c main_v0 : S1x1024.Idx → EReal) (ix2 (0 : Fin 1) h) = aB1 m c (ix1 h) := by
  have e : (V m c main_v0 : S1x1024.Idx → EReal) = shapeCast S1x1024 (m ((c.tc : Thread nD τ).loc main_arg5)) shapeCasts_S1024_S1x1024 := by
    dsimp only [V, hostOps0]; after_results; rfl
  rw [e]; exact shapeCast_a_1a_apply _ _ _ _

/-- The second bias as the region finds it, likewise. -/
theorem V_b2 (c : Dev nD) (a : Fin 12) :
    (V m c main_v1 : S1x12.Idx → EReal) (ix2 (0 : Fin 1) a) = aB2 m c (ix1 a) := by
  have e : (V m c main_v1 : S1x12.Idx → EReal) = shapeCast S1x12 (m ((c.tc : Thread nD τ).loc main_arg7)) shapeCasts_S12_S1x12 := by
    dsimp only [V, hostOps0]; after_results; rfl
  rw [e]; exact shapeCast_a_1a_apply _ _ _ _

/-- The first prefetched table holds nr_units, one word per batch member: the [64, 1] argument viewed as [64]. -/
theorem tbl_nu (b : Fin 64) : (tbl m 0 : S64.Idx → BitVec 32) (ix1 b) = aNu m 0 (ix2 b (0 : Fin 1)) := by
  have e : (tbl m 0 : S64.Idx → BitVec 32) = shapeCast S64 (m (((0 : Dev nD).tc : Thread nD τ).loc main_arg2)) shapeCasts_S64x1_S64 := by
    show V m 0 main_v2 = _
    dsimp only [V, hostOps0]; after_results; rfl
  rw [e]
  exact shapeCast_apply _ _ _ _ (by
    show ((⟨2, ![64, 1]⟩ : Shape).rowMajor (ix2 b (0 : Fin 1))).val = ((⟨1, ![64]⟩ : Shape).rowMajor (ix1 b)).val
    rw [Shape.rowMajor_val_two, Shape.rowMajor_val_one]; show b.val * 1 + 0 = b.val; omega)

/-- The second prefetched table holds nr_own_flags, likewise. -/
theorem tbl_nf (b : Fin 64) : (tbl m 1 : S64.Idx → BitVec 32) (ix1 b) = aNf m 0 (ix2 b (0 : Fin 1)) := by
  have e : (tbl m 1 : S64.Idx → BitVec 32) = shapeCast S64 (m (((0 : Dev nD).tc : Thread nD τ).loc main_arg3)) shapeCasts_S64x1_S64 := by
    show V m 0 main_v3 = _
    dsimp only [V, hostOps0]; after_results; rfl
  rw [e]
  exact shapeCast_apply _ _ _ _ (by
    show ((⟨2, ![64, 1]⟩ : Shape).rowMajor (ix2 b (0 : Fin 1))).val = ((⟨1, ![64]⟩ : Shape).rowMajor (ix1 b)).val
    rw [Shape.rowMajor_val_two, Shape.rowMajor_val_one]; show b.val * 1 + 0 = b.val; omega)

/-! ## The grid: point t is batch member t -/

theorem idx_moving : ∀ t : Fin grid0.N,
    (cc0_transform_0 (grid0.coords t) 0 = t.val ∧ cc0_transform_0 (grid0.coords t) 1 = 0 ∧ cc0_transform_0 (grid0.coords t) 2 = 0)
    ∧ (cc0_transform_1 (grid0.coords t) 0 = t.val ∧ cc0_transform_1 (grid0.coords t) 1 = 0 ∧ cc0_transform_1 (grid0.coords t) 2 = 0)
    ∧ (cc0_transform_6 (grid0.coords t) 0 = t.val ∧ cc0_transform_6 (grid0.coords t) 1 = 0 ∧ cc0_transform_6 (grid0.coords t) 2 = 0)
    ∧ (cc0_transform_7 (grid0.coords t) 0 = t.val ∧ cc0_transform_7 (grid0.coords t) 1 = 0 ∧ cc0_transform_7 (grid0.coords t) 2 = 0) := by
  decide +kernel

theorem idx_fixed : ∀ t : Fin grid0.N,
    (cc0_transform_2 (grid0.coords t) 0 = 0 ∧ cc0_transform_2 (grid0.coords t) 1 = 0)
    ∧ (cc0_transform_3 (grid0.coords t) 0 = 0 ∧ cc0_transform_3 (grid0.coords t) 1 = 0)
    ∧ (cc0_transform_4 (grid0.coords t) 0 = 0 ∧ cc0_transform_4 (grid0.coords t) 1 = 0)
    ∧ (cc0_transform_5 (grid0.coords t) 0 = 0 ∧ cc0_transform_5 (grid0.coords t) 1 = 0) := by
  decide +kernel

theorem coords_val : ∀ t : Fin grid0.N, ((grid0.coords t) 0).val = t.val := by decide +kernel

/-- The batch member a grid point works on. -/
abbrev member (t : Fin grid0.N) : Fin 64 := t.cast N_0

/-! ## The input blocks at a point, read at an index -/

variable (hO : Ok m) (c : Dev nD) (t : Fin (cfgM m hO).N)

abbrev bCore : Vec Ideal S1x1x512 .f32 := iblk m hO c 0 t

/-- The core block of point t is row t of the core output. -/
theorem bCore_apply (j : Fin 512) :
    bCore m hO c t (ix3 (0 : Fin 1) (0 : Fin 1) j) = aCore m c (ix3 (member t) (0 : Fin 1) j) := by
  show V m c main_arg0 ((((cfgM m hO).win 0).blk t).view.emb (ix3 (0 : Fin 1) (0 : Fin 1) j)) = _
  rw [V_main_arg0]
  refine congrArg (m _) (funext fun a => Fin.ext ?_)
  obtain ⟨⟨e0, e1, e2⟩, -⟩ := idx_moving t
  match a with
  | ⟨0, _⟩ => show cc0_transform_0 (grid0.coords t) 0 * 1 + 1 * 0 = t.val; omega
  | ⟨1, _⟩ => show cc0_transform_0 (grid0.coords t) 1 * 1 + 1 * 0 = 0; omega
  | ⟨2, _⟩ => show cc0_transform_0 (grid0.coords t) 2 * 512 + 1 * j.val = j.val; omega

abbrev bUnits : Vec Ideal S1x512x256 .f32 := iblk m hO c 1 t

/-- The units block of point t is member t of the unit embeddings. -/
theorem bUnits_apply (u : Fin 512) (j : Fin 256) :
    bUnits m hO c t (ix3 (0 : Fin 1) u j) = aUnits m c (ix3 (member t) u j) := by
  show V m c main_arg1 ((((cfgM m hO).win 1).blk t).view.emb (ix3 (0 : Fin 1) u j)) = _
  rw [V_main_arg1]
  refine congrArg (m _) (funext fun a => Fin.ext ?_)
  obtain ⟨-, ⟨e0, e1, e2⟩, -⟩ := idx_moving t
  match a with
  | ⟨0, _⟩ => show cc0_transform_1 (grid0.coords t) 0 * 1 + 1 * 0 = t.val; omega
  | ⟨1, _⟩ => show cc0_transform_1 (grid0.coords t) 1 * 512 + 1 * u.val = u.val; omega
  | ⟨2, _⟩ => show cc0_transform_1 (grid0.coords t) 2 * 256 + 1 * j.val = j.val; omega

abbrev bW1 : Vec Ideal S768x1024 .bf16 := iblk m hO c 2 t

/-- The first weight block is, at every point, the whole first weight matrix. -/
theorem bW1_apply (k : Fin 768) (h : Fin 1024) : bW1 m hO c t (ix2 k h) = aW1 m c (ix2 k h) := by
  obtain ⟨⟨e0, e1⟩, -⟩ := idx_fixed t
  have e : (((cfgM m hO).win 2).blk t).view.emb (ix2 k h) = ix2 k h := funext fun a => Fin.ext (by
    match a with
    | ⟨0, _⟩ => show cc0_transform_2 (grid0.coords t) 0 * 768 + 1 * k.val = k.val; omega
    | ⟨1, _⟩ => show cc0_transform_2 (grid0.coords t) 1 * 1024 + 1 * h.val = h.val; omega)
  show V m c main_v4 ((((cfgM m hO).win 2).blk t).view.emb (ix2 k h)) = _
  rw [e]; exact V_w1 m c k h

abbrev bB1 : Vec Ideal S1x1024 .f32 := iblk m hO c 3 t

/-- The first bias block is, at every point, the first bias as one row. -/
theorem bB1_apply (h : Fin 1024) : bB1 m hO c t (ix2 (0 : Fin 1) h) = aB1 m c (ix1 h) := by
  obtain ⟨-, ⟨e0, e1⟩, -⟩ := idx_fixed t
  have e : (((cfgM m hO).win 3).blk t).view.emb (ix2 (0 : Fin 1) h) = ix2 (0 : Fin 1) h := funext fun a => Fin.ext (by
    match a with
    | ⟨0, _⟩ => show cc0_transform_3 (grid0.coords t) 0 * 1 + 1 * 0 = 0; omega
    | ⟨1, _⟩ => show cc0_transform_3 (grid0.coords t) 1 * 1024 + 1 * h.val = h.val; omega)
  show V m c main_v0 ((((cfgM m hO).win 3).blk t).view.emb (ix2 (0 : Fin 1) h)) = _
  rw [e]; exact V_b1 m c h

abbrev bW2 : Vec Ideal S1024x12 .bf16 := iblk m hO c 4 t

/-- The second weight block is, at every point, the whole second weight matrix. -/
theorem bW2_apply (h : Fin 1024) (a : Fin 12) : bW2 m hO c t (ix2 h a) = aW2 m c (ix2 h a) := by
  obtain ⟨-, -, ⟨e0, e1⟩, -⟩ := idx_fixed t
  have e : (((cfgM m hO).win 4).blk t).view.emb (ix2 h a) = ix2 h a := funext fun d => Fin.ext (by
    match d with
    | ⟨0, _⟩ => show cc0_transform_4 (grid0.coords t) 0 * 1024 + 1 * h.val = h.val; omega
    | ⟨1, _⟩ => show cc0_transform_4 (grid0.coords t) 1 * 12 + 1 * a.val = a.val; omega)
  show V m c main_v5 ((((cfgM m hO).win 4).blk t).view.emb (ix2 h a)) = _
  rw [e]; exact V_w2 m c h a

abbrev bB2 : Vec Ideal S1x12 .f32 := iblk m hO c 5 t

/-- The second bias block is, at every point, the second bias as one row. -/
theorem bB2_apply (a : Fin 12) : bB2 m hO c t (ix2 (0 : Fin 1) a) = aB2 m c (ix1 a) := by
  obtain ⟨-, -, -, ⟨e0, e1⟩⟩ := idx_fixed t
  have e : (((cfgM m hO).win 5).blk t).view.emb (ix2 (0 : Fin 1) a) = ix2 (0 : Fin 1) a := funext fun d => Fin.ext (by
    match d with
    | ⟨0, _⟩ => show cc0_transform_5 (grid0.coords t) 0 * 1 + 1 * 0 = 0; omega
    | ⟨1, _⟩ => show cc0_transform_5 (grid0.coords t) 1 * 12 + 1 * a.val = a.val; omega)
  show V m c main_v1 ((((cfgM m hO).win 5).blk t).view.emb (ix2 (0 : Fin 1) a)) = _
  rw [e]; exact V_b2 m c a

/-! ## What the outputs' staging buffers hold after point t -/

/-- The two results as functions of the argument arrays. -/
abbrev gEmb (c : Dev nD) : (⟨3, ![64, 512, 1024]⟩ : Shape).Idx → EReal :=
  hiddenArr (aCore m c) (aUnits m c) (aW1 m c) (aB1 m c)
abbrev gProbs (c : Dev nD) : (⟨3, ![64, 512, 12]⟩ : Shape).Idx → EReal :=
  probArr (logitArr (gEmb m c) (aW2 m c) (aB2 m c)) (aNu m c) (aNf m c)

/-- The second output's staged block after point t is member t of the hidden array. -/
theorem out_emb (u : Fin 512) (h : Fin 1024) :
    (outsAt0 m hO c t).2 (ix3 (0 : Fin 1) u h) = gEmb m c (ix3 (member t) u h) := by
  unfold outsAt0
  dsimp only
  exact PointValue.emb_block (aCore m c) (aUnits m c) (aW1 m c) (aB1 m c) (member t) c (grid0.coords t)
    (ms0_0 m hO t) (hs0_0 m hO t) (ms0_1 m hO t) (hs0_1 m hO t) (ms0_2 m hO t) (hs0_2 m hO t) (ms0_3 m hO t) (hs0_3 m hO t)
    (ms0_4 m hO t) (hs0_4 m hO t) (ms0_5 m hO t) (hs0_5 m hO t) (ms0_6 m hO t) (hs0_6 m hO t) (ms0_7 m hO t) (hs0_7 m hO t)
    (bCore m hO c t) (bUnits m hO c t) (bW1 m hO c t) (bB1 m hO c t) (bW2 m hO c t) (bB2 m hO c t) (tbl m 0) (tbl m 1)
    (bCore_apply m hO c t) (bUnits_apply m hO c t) (bW1_apply m hO c t) (bB1_apply m hO c t) u h

/-- The first output's staged block after point t is member t of the scaled softmax. -/
theorem out_probs (u : Fin 512) (a : Fin 12) :
    (outsAt0 m hO c t).1 (ix3 (0 : Fin 1) u a) = gProbs m c (ix3 (member t) u a) := by
  obtain rfl : c = 0 := Subsingleton.elim _ _
  unfold outsAt0
  dsimp only
  exact PointValue.probs_block (aCore m 0) (aUnits m 0) (aW1 m 0) (aB1 m 0) (aW2 m 0) (aB2 m 0) (aNu m 0) (aNf m 0) (member t)
    0 (grid0.coords t) (coords_val t)
    (ms0_0 m hO t) (hs0_0 m hO t) (ms0_1 m hO t) (hs0_1 m hO t) (ms0_2 m hO t) (hs0_2 m hO t) (ms0_3 m hO t) (hs0_3 m hO t)
    (ms0_4 m hO t) (hs0_4 m hO t) (ms0_5 m hO t) (hs0_5 m hO t) (ms0_6 m hO t) (hs0_6 m hO t) (ms0_7 m hO t) (hs0_7 m hO t)
    (bCore m hO 0 t) (bUnits m hO 0 t) (bW1 m hO 0 t) (bB1 m hO 0 t) (bW2 m hO 0 t) (bB2 m hO 0 t) (tbl m 0) (tbl m 1)
    (bCore_apply m hO 0 t) (bUnits_apply m hO 0 t) (bW1_apply m hO 0 t) (bB1_apply m hO 0 t) (bW2_apply m hO 0 t) (bB2_apply m hO 0 t)
    (tbl_nu m) (tbl_nf m) u a

/-! ## What each point writes back, and that the points' blocks tile the result arrays -/

/-- Point t writes back, to the second result, block t of the hidden array. -/
theorem flushed_emb :
    (dats m hO 0 c).flushed 7 t = (((cfgM m hO).win 7).blk t).view.read (Elt Ideal) (gEmb m c) := by
  show ((cfgM m hO).win 7).cut (grid0.coords t) ((dats m hO 0 c).after 7 t) = _
  rw [after0_7]
  refine funext fun (y : S1x512x1024.Idx) => ?_
  show (outsAt0 m hO c t).2 y = gEmb m c ((((cfgM m hO).win 7).blk t).view.emb y)
  obtain ⟨p, u, h, rfl⟩ : ∃ (p : Fin 1) (u : Fin 512) (h : Fin 1024), y = ix3 p u h := ⟨y 0, y 1, y 2, eq_ix3 y⟩
  obtain rfl : p = 0 := Subsingleton.elim _ _
  rw [out_emb]
  obtain ⟨-, -, -, ⟨e0, e1, e2⟩⟩ := idx_moving t
  refine congrArg (gEmb m c) (funext fun a => Fin.ext ?_)
  match a with
  | ⟨0, _⟩ => show t.val = cc0_transform_7 (grid0.coords t) 0 * 1 + 1 * 0; omega
  | ⟨1, _⟩ => show u.val = cc0_transform_7 (grid0.coords t) 1 * 512 + 1 * u.val; omega
  | ⟨2, _⟩ => show h.val = cc0_transform_7 (grid0.coords t) 2 * 1024 + 1 * h.val; omega

/-- Point t writes back, to the first result, block t of the scaled softmax. -/
theorem flushed_probs :
    (dats m hO 0 c).flushed 6 t = (((cfgM m hO).win 6).blk t).view.read (Elt Ideal) (gProbs m c) := by
  show ((cfgM m hO).win 6).cut (grid0.coords t) ((dats m hO 0 c).after 6 t) = _
  rw [after0_6]
  refine funext fun (y : S1x512x12.Idx) => ?_
  show (outsAt0 m hO c t).1 y = gProbs m c ((((cfgM m hO).win 6).blk t).view.emb y)
  obtain ⟨p, u, a, rfl⟩ : ∃ (p : Fin 1) (u : Fin 512) (a : Fin 12), y = ix3 p u a := ⟨y 0, y 1, y 2, eq_ix3 y⟩
  obtain rfl : p = 0 := Subsingleton.elim _ _
  rw [out_probs]
  obtain ⟨-, -, ⟨e0, e1, e2⟩, -⟩ := idx_moving t
  refine congrArg (gProbs m c) (funext fun d => Fin.ext ?_)
  match d with
  | ⟨0, _⟩ => show t.val = cc0_transform_6 (grid0.coords t) 0 * 1 + 1 * 0; omega
  | ⟨1, _⟩ => show u.val = cc0_transform_6 (grid0.coords t) 1 * 512 + 1 * u.val; omega
  | ⟨2, _⟩ => show a.val = cc0_transform_6 (grid0.coords t) 2 * 12 + 1 * a.val; omega

/-- The grid point of a batch member. -/
abbrev pointOf (b : Fin 64) : Fin grid0.N := b.cast N_0.symm

/-- Every entry of the second result lies in the block of the point of its batch coordinate. -/
theorem mem_blk_emb (i : S64x512x1024.Idx) (b : Fin 64) (hb : (i 0).val = b.val) :
    i ∈ (((cfgM m hO).win 7).blk (pointOf b)).view.set := by
  have key : ∀ R : Rect S64x512x1024, i ∈ ((View.whole main_v6_1).slice R).set ↔ i ∈ R.set := fun R => by
    rw [View.set_slice_whole]
  obtain ⟨-, -, -, ⟨e0, e1, e2⟩⟩ := idx_moving (pointOf b)
  have v0 : (pointOf b).val = b.val := rfl
  have h1 : (i 1).val < 512 := (i 1).isLt
  have h2 : (i 2).val < 1024 := (i 2).isLt
  refine (key _).mpr (Rect.mem_set_unit.mpr fun a => ?_)
  match a with
  | ⟨0, _⟩ => show cc0_transform_7 (grid0.coords (pointOf b)) 0 * 1 ≤ (i 0).val ∧ (i 0).val < cc0_transform_7 (grid0.coords (pointOf b)) 0 * 1 + 1; omega
  | ⟨1, _⟩ => show cc0_transform_7 (grid0.coords (pointOf b)) 1 * 512 ≤ (i 1).val ∧ (i 1).val < cc0_transform_7 (grid0.coords (pointOf b)) 1 * 512 + 512; omega
  | ⟨2, _⟩ => show cc0_transform_7 (grid0.coords (pointOf b)) 2 * 1024 ≤ (i 2).val ∧ (i 2).val < cc0_transform_7 (grid0.coords (pointOf b)) 2 * 1024 + 1024; omega

/-- Every entry of the first result lies in the block of the point of its batch coordinate. -/
theorem mem_blk_probs (i : S64x512x12.Idx) (b : Fin 64) (hb : (i 0).val = b.val) :
    i ∈ (((cfgM m hO).win 6).blk (pointOf b)).view.set := by
  have key : ∀ R : Rect S64x512x12, i ∈ ((View.whole main_v6_0).slice R).set ↔ i ∈ R.set := fun R => by
    rw [View.set_slice_whole]
  obtain ⟨-, -, ⟨e0, e1, e2⟩, -⟩ := idx_moving (pointOf b)
  have v0 : (pointOf b).val = b.val := rfl
  have h1 : (i 1).val < 512 := (i 1).isLt
  have h2 : (i 2).val < 12 := (i 2).isLt
  refine (key _).mpr (Rect.mem_set_unit.mpr fun a => ?_)
  match a with
  | ⟨0, _⟩ => show cc0_transform_6 (grid0.coords (pointOf b)) 0 * 1 ≤ (i 0).val ∧ (i 0).val < cc0_transform_6 (grid0.coords (pointOf b)) 0 * 1 + 1; omega
  | ⟨1, _⟩ => show cc0_transform_6 (grid0.coords (pointOf b)) 1 * 512 ≤ (i 1).val ∧ (i 1).val < cc0_transform_6 (grid0.coords (pointOf b)) 1 * 512 + 512; omega
  | ⟨2, _⟩ => show cc0_transform_6 (grid0.coords (pointOf b)) 2 * 12 ≤ (i 2).val ∧ (i 2).val < cc0_transform_6 (grid0.coords (pointOf b)) 2 * 12 + 12; omega

/-! ## The result arrays after the run -/

/-- The second result array ends holding the hidden array. -/
theorem final_emb : (dats m hO 0 c).arrAt 7 (cfgM m hO).N = gEmb m c :=
  (dats m hO 0 c).arrAt_eq_of_cover 7 (gEmb m c) (fun t _ => flushed_emb m hO c t)
    fun (i : S64x512x1024.Idx) => ⟨pointOf ⟨(i 0).val, (i 0).isLt⟩, flush0_7 (adm m hO) _, mem_blk_emb m hO i ⟨(i 0).val, (i 0).isLt⟩ rfl⟩

/-- The first result array ends holding the scaled softmax. -/
theorem final_probs : (dats m hO 0 c).arrAt 6 (cfgM m hO).N = gProbs m c :=
  (dats m hO 0 c).arrAt_eq_of_cover 6 (gProbs m c) (fun t _ => flushed_probs m hO c t)
    fun (i : S64x512x12.Idx) => ⟨pointOf ⟨(i 0).val, (i 0).isLt⟩, flush0_6 (adm m hO) _, mem_blk_probs m hO i ⟨(i 0).val, (i 0).isLt⟩ rfl⟩

/-! ## The run, read -/

/-- Every weakly fair execution of the kernel's program ends with the first result at the scaled softmax, the second
    at the hidden array, both of the argument arrays, and the arguments as they were. -/
theorem run (hO : Ok m) : θ_run defs (onTc (τ := τ) (main (F := Ideal))) ⟨m, fun _ => 0, ρ⟩ (fun r => ∀ c : Dev nD,
      r.2.mem ((c.tc : Thread nD τ).loc main_v6_0) = gProbs m c
      ∧ r.2.mem ((c.tc : Thread nD τ).loc main_v6_1) = gEmb m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 6).trans (final_probs m hO c), ((h c).1 7).trans (final_emb m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩)
    (run_main m ρ hO)

end Cert.KernelIdeal.KValue

end
-- ==== Proof.lean ====
/-
  The action head's kernel against its jnp reference, on the extended reals.

  Both programs compute, for batch member b and unit slot u: the row [unit embedding | core output] times W1 plus
  b1, clamped at 0 below (the hidden array, which is the second result); that times W2 plus b2 (the logits); the
  softmax of the twelve logits; times 1 where nr_own_flags b ≤ u < nr_units b and times the constant near 1e-9
  elsewhere (the first result). The kernel does it one batch member per grid point, on blocks, with the two weight
  matrices narrowed to bf16 first; at the extended reals a change of float format is the identity, the kernel's
  matrix product into a zero accumulator and the host's dot_general are the same sum over the contracted index, the
  lane reductions are the host's reductions over the last axis, and the host's sum starts from the zero word. No law
  beyond reordering of finite sums is used, so the finiteness of the inputs is never needed.

  ActionHeadSpec states the function; RefStages shows the reference's stages are it; Payloads reads the kernel body's
  values entry by entry; PointValue and KernelValue read the kernel's run: each point writes back member t of the two
  results, and the 64 points' blocks tile the result arrays.

  The pipeline's side condition on the two prefetched tables is vacuous here: no index map reads a table.
-/
import proofs.«424987_j18236431139261_1_alg».proof.Defs
import proofs.«424987_j18236431139261_1_alg».proof.Proof.Gen.Kernel
import proofs.«424987_j18236431139261_1_alg».proof.Proof.Gen.Kernel.Skeleton
import proofs.«424987_j18236431139261_1_alg».proof.Proof.Gen.Kernel.Launch
import proofs.«424987_j18236431139261_1_alg».proof.Proof.Gen.Kernel.Points
import proofs.«424987_j18236431139261_1_alg».proof.Proof.Gen.Kernel.Frame
import proofs.«424987_j18236431139261_1_alg».proof.Proof.Gen.KernelIdeal
import proofs.«424987_j18236431139261_1_alg».proof.Proof.Gen.KernelIdeal.Skeleton
import proofs.«424987_j18236431139261_1_alg».proof.Proof.Gen.KernelIdeal.Launch
import proofs.«424987_j18236431139261_1_alg».proof.Proof.Gen.KernelIdeal.Points
import proofs.«424987_j18236431139261_1_alg».proof.Proof.Gen.KernelIdeal.Frame
import proofs.«424987_j18236431139261_1_alg».proof.Proof.Gen.ReferenceIdeal
import proofs.«424987_j18236431139261_1_alg».proof.Proof.Gen.ReferenceIdeal.Run
import proofs.«424987_j18236431139261_1_alg».proof.Proof.Gen.ReferenceIdeal.Read
import proofs.«424987_j18236431139261_1_alg».proof.Proof.Gen.Pre_finite_inputs
import proofs.«424987_j18236431139261_1_alg».proof.Proof.RefStages
import proofs.«424987_j18236431139261_1_alg».proof.Proof.KernelValue
import Idealize.ShloMosaic.Adequacy
import Idealize.ShloMosaic.Init

noncomputable section

namespace Cert.Proof

open Idealize.ShloMosaic Idealize.ShloMosaic.TcCoe Idealize.SL.Sem

/-- The kernel's frame, at the word level: the tables' side condition holds of every contents. -/
theorem frame_k : Cert.frame_Kernel := fun m ρ _ => Cert.Kernel.Gen.frame m ρ True.intro

/-- The idealized kernel's frame. -/
theorem frame_ki : Cert.frame_KernelIdeal := fun m ρ _ => Cert.KernelIdeal.Gen.frame m ρ True.intro

/-- The reference's frame: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The two idealized programs, from memories that agree on the arguments, end with the same two results: the
    kernel's run leaves the scaled softmax and the hidden array of its arguments, and the reference's stages are
    those same functions of its own. -/
theorem algebraic : Cert.algebraic_KernelIdeal_ReferenceIdeal := by
  intro m ρ m' ρ' _ hagree
  refine ⟨fun c => Cert.KernelIdeal.KValue.gProbs m c, fun c => Cert.KernelIdeal.KValue.gEmb m c,
    Cert.KernelIdeal.KValue.run m ρ True.intro, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7⟩ := hagree c
    rw [(h c).1, Cert.ReferenceIdeal.Read.val_main_v35_eq, Cert.ReferenceIdeal.RefValue.probs_eq, a0, a1, a2, a3, a4, a5, a6, a7]
  · obtain ⟨a0, a1, a2, a3, a4, a5, a6, a7⟩ := hagree c
    rw [(h c).2.1, Cert.ReferenceIdeal.Read.val_main_v6_eq, Cert.ReferenceIdeal.RefValue.hidden_eq, a0, a1, a4, a5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
